-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x784 : Shape := ⟨2, ![512, 784]⟩
abbrev S8192 : Shape := ⟨1, ![8192]⟩
abbrev S784x262144 : Shape := ⟨2, ![784, 262144]⟩
abbrev S262144 : Shape := ⟨1, ![262144]⟩
abbrev S10x262144 : Shape := ⟨2, ![10, 262144]⟩
abbrev S10 : Shape := ⟨1, ![10]⟩
abbrev S_ : Shape := ⟨0, ![]⟩

class Facts : Prop where
  bcast_S_S512x784 : S_.BroadcastsInDim S512x784 (![] : Fin 0 → Fin S512x784.rank)
  reducesTo_S512x784_S_d0_1 : S512x784.ReducesTo [0, 1] S_
  h_S_ : 0 < S_.numel
  bcast_S_S784x262144 : S_.BroadcastsInDim S784x262144 (![] : Fin 0 → Fin S784x262144.rank)
  reducesTo_S784x262144_S_d0_1 : S784x262144.ReducesTo [0, 1] S_
  bcast_S_S262144 : S_.BroadcastsInDim S262144 (![] : Fin 0 → Fin S262144.rank)
  reducesTo_S262144_S_d0 : S262144.ReducesTo [0] S_
  bcast_S_S10x262144 : S_.BroadcastsInDim S10x262144 (![] : Fin 0 → Fin S10x262144.rank)
  reducesTo_S10x262144_S_d0_1 : S10x262144.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg5 : FVec F S10 .f32) (main_v13 : IVec S_ 1) (main_v16 : IVec S10x262144 1) : IVec S_ 1 :=
  let main_c_5 : IVec S_ 1 := constantI S_ 1 1#1
  let main_v17 : IVec S_ 1 := (fun x v => Host.reduce IntOp.andi x v reducesTo_S10x262144_S_d0_1 h_S_) main_v16 main_c_5
  let main_v18 : IVec S_ 1 := andi main_v13 main_v17
  let main_v19 : FVec F S10 .f32 := Host.absf main_arg5
  let main_cst_6 : FVec F S_ .f32 := constant S_ .f32 0x7F800000#32
  let main_v20 : FVec F S10 .f32 := broadcastInDim S10 ![] bcast_S_S10 main_cst_6
  let main_v21 : IVec S10 1 := cmpf .olt main_v19 main_v20
  let main_c_7 : IVec S_ 1 := constantI S_ 1 1#1
  let main_v22 : IVec S_ 1 := (fun x v => Host.reduce IntOp.andi x v reducesTo_S10_S_d0 h_S_) main_v21 main_c_7
  let main_v23 : IVec S_ 1 := andi main_v18 main_v22
  main_v23

def fn {F : FTy → Type} [FloatOps F] (main_arg0 : FVec F S512x784 .f32) (main_arg1 : IVec S8192 32) (main_arg2 : FVec F S784x262144 .f32) (main_arg3 : FVec F S262144 .f32) (main_arg4 : FVec F S10x262144 .f32) (main_arg5 : FVec F S10 .f32) : IVec S_ 1 :=
  let main_v0 : FVec F S512x784 .f32 := Host.absf main_arg0
  let main_cst : FVec F S_ .f32 := constant S_ .f32 0x7F800000#32
  let main_v1 : FVec F S512x784 .f32 := broadcastInDim S512x784 ![] bcast_S_S512x784 main_cst
  let main_v2 : IVec S512x784 1 := cmpf .olt main_v0 main_v1
  let main_c : IVec S_ 1 := constantI S_ 1 1#1
  let main_v3 : IVec S_ 1 := (fun x v => Host.reduce IntOp.andi x v reducesTo_S512x784_S_d0_1 h_S_) main_v2 main_c
  let main_v4 : FVec F S784x262144 .f32 := Host.absf main_arg2
  let main_cst_0 : FVec F S_ .f32 := constant S_ .f32 0x7F800000#32
  let main_v5 : FVec F S784x262144 .f32 := broadcastInDim S784x262144 ![] bcast_S_S784x262144 main_cst_0
  let main_v6 : IVec S784x262144 1 := cmpf .olt main_v4 main_v5
  let main_c_1 : IVec S_ 1 := constantI S_ 1 1#1
  let main_v7 : IVec S_ 1 := (fun x v => Host.reduce IntOp.andi x v reducesTo_S784x262144_S_d0_1 h_S_) main_v6 main_c_1
  let main_v8 : IVec S_ 1 := andi main_v3 main_v7
  let main_v9 : FVec F S262144 .f32 := Host.absf main_arg3
  let main_cst_2 : FVec F S_ .f32 := constant S_ .f32 0x7F800000#32
  let main_v10 : FVec F S262144 .f32 := broadcastInDim S262144 ![] bcast_S_S262144 main_cst_2
  let main_v11 : IVec S262144 1 := cmpf .olt main_v9 main_v10
  let main_c_3 : IVec S_ 1 := constantI S_ 1 1#1
  let main_v12 : IVec S_ 1 := (fun x v => Host.reduce IntOp.andi x v reducesTo_S262144_S_d0 h_S_) main_v11 main_c_3
  let main_v13 : IVec S_ 1 := andi main_v8 main_v12
  let main_v14 : FVec F S10x262144 .f32 := Host.absf main_arg4
  let main_cst_4 : FVec F S_ .f32 := constant S_ .f32 0x7F800000#32
  let main_v15 : FVec F S10x262144 .f32 := broadcastInDim S10x262144 ![] bcast_S_S10x262144 main_cst_4
  let main_v16 : IVec S10x262144 1 := cmpf .olt main_v14 main_v15
  fn_part1 (F := F) main_arg5 main_v13 main_v16
-- ==== Kernel.lean ====
abbrev S512x784 : Shape := ⟨2, ![512, 784]⟩
abbrev S8192 : Shape := ⟨1, ![8192]⟩
abbrev S784x262144 : Shape := ⟨2, ![784, 262144]⟩
abbrev S262144 : Shape := ⟨1, ![262144]⟩
abbrev S10x262144 : Shape := ⟨2, ![10, 262144]⟩
abbrev S10 : Shape := ⟨1, ![10]⟩
abbrev S_ : Shape := ⟨0, ![]⟩
abbrev S8192x1 : Shape := ⟨2, ![8192, 1]⟩
abbrev S1 : Shape := ⟨1, ![1]⟩
abbrev S1x1 : Shape := ⟨2, ![1, 1]⟩
abbrev S784x8192 : Shape := ⟨2, ![784, 8192]⟩
abbrev S1x8192 : Shape := ⟨2, ![1, 8192]⟩
abbrev S10x8192 : Shape := ⟨2, ![10, 8192]⟩
abbrev S8192x10 : Shape := ⟨2, ![8192, 10]⟩
abbrev S1x10 : Shape := ⟨2, ![1, 10]⟩
abbrev S512x10 : Shape := ⟨2, ![512, 10]⟩
abbrev S784x1024 : Shape := ⟨2, ![784, 1024]⟩
abbrev S1x1024 : Shape := ⟨2, ![1, 1024]⟩
abbrev S1024x10 : Shape := ⟨2, ![1024, 10]⟩
abbrev S512x1024 : Shape := ⟨2, ![512, 1024]⟩

abbrev nBuf : Space → Nat
  | .hbm => 78
  | .vmem => 10
  | .smem => 0
  | _ => 0

abbrev bufTy : (tb : Table) → Fin (tcTables nBuf tb) → BufTy
  | .hbm, ⟨0, _⟩ => ⟨S512x784, .f32⟩
  | .hbm, ⟨1, _⟩ => ⟨S8192, .i32⟩
  | .hbm, ⟨2, _⟩ => ⟨S784x262144, .f32⟩
  | .hbm, ⟨3, _⟩ => ⟨S262144, .f32⟩
  | .hbm, ⟨4, _⟩ => ⟨S10x262144, .f32⟩
  | .hbm, ⟨5, _⟩ => ⟨S10, .f32⟩
  | .hbm, ⟨6, _⟩ => ⟨S_, .i32⟩
  | .hbm, ⟨7, _⟩ => ⟨S8192, .i32⟩
  | .hbm, ⟨8, _⟩ => ⟨S8192, .i1⟩
  | .hbm, ⟨9, _⟩ => ⟨S_, .i32⟩
  | .hbm, ⟨10, _⟩ => ⟨S8192, .i32⟩
  | .hbm, ⟨11, _⟩ => ⟨S8192, .i32⟩
  | .hbm, ⟨12, _⟩ => ⟨S8192, .i32⟩
  | .hbm, ⟨13, _⟩ => ⟨S8192x1, .i32⟩
  | .hbm, ⟨14, _⟩ => ⟨S1, .i32⟩
  | .hbm, ⟨15, _⟩ => ⟨S_, .i32⟩
  | .hbm, ⟨16, _⟩ => ⟨S8192x1, .i32⟩
  | .hbm, ⟨17, _⟩ => ⟨S8192x1, .i1⟩
  | .hbm, ⟨18, _⟩ => ⟨S1x1, .i32⟩
  | .hbm, ⟨19, _⟩ => ⟨S8192x1, .i32⟩
  | .hbm, ⟨20, _⟩ => ⟨S8192x1, .i1⟩
  | .hbm, ⟨21, _⟩ => ⟨S8192x1, .i1⟩
  | .hbm, ⟨22, _⟩ => ⟨S_, .i1⟩
  | .hbm, ⟨23, _⟩ => ⟨S8192, .i1⟩
  | .hbm, ⟨24, _⟩ => ⟨S784x8192, .f32⟩
  | .hbm, ⟨25, _⟩ => ⟨S784x8192, .i1⟩
  | .hbm, ⟨26, _⟩ => ⟨S_, .f32⟩
  | .hbm, ⟨27, _⟩ => ⟨S784x8192, .f32⟩
  | .hbm, ⟨28, _⟩ => ⟨S784x8192, .f32⟩
  | .hbm, ⟨29, _⟩ => ⟨S_, .i32⟩
  | .hbm, ⟨30, _⟩ => ⟨S8192, .i32⟩
  | .hbm, ⟨31, _⟩ => ⟨S8192, .i1⟩
  | .hbm, ⟨32, _⟩ => ⟨S_, .i32⟩
  | .hbm, ⟨33, _⟩ => ⟨S8192, .i32⟩
  | .hbm, ⟨34, _⟩ => ⟨S8192, .i32⟩
  | .hbm, ⟨35, _⟩ => ⟨S8192, .i32⟩
  | .hbm, ⟨36, _⟩ => ⟨S8192x1, .i32⟩
  | .hbm, ⟨37, _⟩ => ⟨S1, .i32⟩
  | .hbm, ⟨38, _⟩ => ⟨S_, .i32⟩
  | .hbm, ⟨39, _⟩ => ⟨S8192x1, .i32⟩
  | .hbm, ⟨40, _⟩ => ⟨S8192x1, .i1⟩
  | .hbm, ⟨41, _⟩ => ⟨S1x1, .i32⟩
  | .hbm, ⟨42, _⟩ => ⟨S8192x1, .i32⟩
  | .hbm, ⟨43, _⟩ => ⟨S8192x1, .i1⟩
  | .hbm, ⟨44, _⟩ => ⟨S8192x1, .i1⟩
  | .hbm, ⟨45, _⟩ => ⟨S_, .i1⟩
  | .hbm, ⟨46, _⟩ => ⟨S8192, .i1⟩
  | .hbm, ⟨47, _⟩ => ⟨S8192, .f32⟩
  | .hbm, ⟨48, _⟩ => ⟨S_, .f32⟩
  | .hbm, ⟨49, _⟩ => ⟨S8192, .f32⟩
  | .hbm, ⟨50, _⟩ => ⟨S8192, .f32⟩
  | .hbm, ⟨51, _⟩ => ⟨S1x8192, .f32⟩
  | .hbm, ⟨52, _⟩ => ⟨S_, .i32⟩
  | .hbm, ⟨53, _⟩ => ⟨S8192, .i32⟩
  | .hbm, ⟨54, _⟩ => ⟨S8192, .i1⟩
  | .hbm, ⟨55, _⟩ => ⟨S_, .i32⟩
  | .hbm, ⟨56, _⟩ => ⟨S8192, .i32⟩
  | .hbm, ⟨57, _⟩ => ⟨S8192, .i32⟩
  | .hbm, ⟨58, _⟩ => ⟨S8192, .i32⟩
  | .hbm, ⟨59, _⟩ => ⟨S8192x1, .i32⟩
  | .hbm, ⟨60, _⟩ => ⟨S1, .i32⟩
  | .hbm, ⟨61, _⟩ => ⟨S_, .i32⟩
  | .hbm, ⟨62, _⟩ => ⟨S8192x1, .i32⟩
  | .hbm, ⟨63, _⟩ => ⟨S8192x1, .i1⟩
  | .hbm, ⟨64, _⟩ => ⟨S1x1, .i32⟩
  | .hbm, ⟨65, _⟩ => ⟨S8192x1, .i32⟩
  | .hbm, ⟨66, _⟩ => ⟨S8192x1, .i1⟩
  | .hbm, ⟨67, _⟩ => ⟨S8192x1, .i1⟩
  | .hbm, ⟨68, _⟩ => ⟨S_, .i1⟩
  | .hbm, ⟨69, _⟩ => ⟨S8192, .i1⟩
  | .hbm, ⟨70, _⟩ => ⟨S10x8192, .f32⟩
  | .hbm, ⟨71, _⟩ => ⟨S10x8192, .i1⟩
  | .hbm, ⟨72, _⟩ => ⟨S_, .f32⟩
  | .hbm, ⟨73, _⟩ => ⟨S10x8192, .f32⟩
  | .hbm, ⟨74, _⟩ => ⟨S10x8192, .f32⟩
  | .hbm, ⟨75, _⟩ => ⟨S8192x10, .f32⟩
  | .hbm, ⟨76, _⟩ => ⟨S1x10, .f32⟩
  | .hbm, ⟨77, _⟩ => ⟨S512x10, .f32⟩
  | .local _ .vmem, ⟨0, _⟩ => ⟨S512x784, .f32⟩
  | .local _ .vmem, ⟨1, _⟩ => ⟨S784x1024, .f32⟩
  | .local _ .vmem, ⟨2, _⟩ => ⟨S784x1024, .f32⟩
  | .local _ .vmem, ⟨3, _⟩ => ⟨S1x1024, .f32⟩
  | .local _ .vmem, ⟨4, _⟩ => ⟨S1x1024, .f32⟩
  | .local _ .vmem, ⟨5, _⟩ => ⟨S1024x10, .f32⟩
  | .local _ .vmem, ⟨6, _⟩ => ⟨S1024x10, .f32⟩
  | .local _ .vmem, ⟨7, _⟩ => ⟨S1x10, .f32⟩
  | .local _ .vmem, ⟨8, _⟩ => ⟨S512x10, .f32⟩
  | .local _ .vmem, ⟨9, _⟩ => ⟨S512x10, .f32⟩
  | _, _ => ⟨S512x784, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v0 : Ref sig .tc := ⟨.hbm, 28, rfl⟩
abbrev main_call1_c : Ref sig .tc := ⟨.hbm, 29, rfl⟩
abbrev main_call1_v0 : Ref sig .tc := ⟨.hbm, 30, rfl⟩
abbrev main_call1_v1 : Ref sig .tc := ⟨.hbm, 31, rfl⟩
abbrev main_call1_c_0 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_v5 : Ref sig .tc := ⟨.hbm, 36, rfl⟩
abbrev main_call1_c_1 : Ref sig .tc := ⟨.hbm, 37, rfl⟩
abbrev main_call1_c_2 : Ref sig .tc := ⟨.hbm, 38, rfl⟩
abbrev main_call1_v6 : Ref sig .tc := ⟨.hbm, 39, rfl⟩
abbrev main_call1_v7 : Ref sig .tc := ⟨.hbm, 40, rfl⟩
abbrev main_call1_v8 : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_c_3 : Ref sig .tc := ⟨.hbm, 45, rfl⟩
abbrev main_call1_v12 : Ref sig .tc := ⟨.hbm, 46, rfl⟩
abbrev main_call1_v13 : Ref sig .tc := ⟨.hbm, 47, rfl⟩
abbrev main_call1_cst : Ref sig .tc := ⟨.hbm, 48, rfl⟩
abbrev main_call1_v14 : Ref sig .tc := ⟨.hbm, 49, rfl⟩
abbrev main_v1 : Ref sig .tc := ⟨.hbm, 50, rfl⟩
abbrev main_v2 : Ref sig .tc := ⟨.hbm, 51, rfl⟩
abbrev main_call2_c : Ref sig .tc := ⟨.hbm, 52, rfl⟩
abbrev main_call2_v0 : Ref sig .tc := ⟨.hbm, 53, rfl⟩
abbrev main_call2_v1 : Ref sig .tc := ⟨.hbm, 54, rfl⟩
abbrev main_call2_c_0 : Ref sig .tc := ⟨.hbm, 55, rfl⟩
abbrev main_call2_v2 : Ref sig .tc := ⟨.hbm, 56, rfl⟩
abbrev main_call2_v3 : Ref sig .tc := ⟨.hbm, 57, rfl⟩
abbrev main_call2_v4 : Ref sig .tc := ⟨.hbm, 58, rfl⟩
abbrev main_call2_v5 : Ref sig .tc := ⟨.hbm, 59, rfl⟩
abbrev main_call2_c_1 : Ref sig .tc := ⟨.hbm, 60, rfl⟩
abbrev main_call2_c_2 : Ref sig .tc := ⟨.hbm, 61, rfl⟩
abbrev main_call2_v6 : Ref sig .tc := ⟨.hbm, 62, rfl⟩
abbrev main_call2_v7 : Ref sig .tc := ⟨.hbm, 63, rfl⟩
abbrev main_call2_v8 : Ref sig .tc := ⟨.hbm, 64, rfl⟩
abbrev main_call2_v9 : Ref sig .tc := ⟨.hbm, 65, rfl⟩
abbrev main_call2_v10 : Ref sig .tc := ⟨.hbm, 66, rfl⟩
abbrev main_call2_v11 : Ref sig .tc := ⟨.hbm, 67, rfl⟩
abbrev main_call2_c_3 : Ref sig .tc := ⟨.hbm, 68, rfl⟩
abbrev main_call2_v12 : Ref sig .tc := ⟨.hbm, 69, rfl⟩
abbrev main_call2_v13 : Ref sig .tc := ⟨.hbm, 70, rfl⟩
abbrev main_call2_v14 : Ref sig .tc := ⟨.hbm, 71, rfl⟩
abbrev main_call2_cst : Ref sig .tc := ⟨.hbm, 72, rfl⟩
abbrev main_call2_v15 : Ref sig .tc := ⟨.hbm, 73, rfl⟩
abbrev main_v3 : Ref sig .tc := ⟨.hbm, 74, rfl⟩
abbrev main_v4 : Ref sig .tc := ⟨.hbm, 75, rfl⟩
abbrev main_v5 : Ref sig .tc := ⟨.hbm, 76, rfl⟩
abbrev main_v6 : Ref sig .tc := ⟨.hbm, 77, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_scratch0 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v25 : BitVec 1 := Scalar.cmpi .eq arg0 c7_i32
  let v26 : BitVec 32 := Scalar.extui v25
  let c0_i32_14 : BitVec 32 := 0#32
  let v27 : BitVec 1 := Scalar.cmpi .ne v26 c0_i32_14
  v27

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S512x784 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S784x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x10 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x10 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x10 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  reducesTo_S8192x1_S8192_d1 : S8192x1.ReducesTo [1] S8192
  h_S_ : 0 < S_.numel
  bcast_S8192_S784x8192_1 : S8192.BroadcastsInDim S784x8192 (![1] : Fin 1 → Fin S784x8192.rank)
  bcast_S_S784x8192 : S_.BroadcastsInDim S784x8192 (![] : Fin 0 → Fin S784x8192.rank)
  shapeCasts_S8192_S1x8192 : S8192.ShapeCasts S1x8192
  bcast_S8192_S10x8192_1 : S8192.BroadcastsInDim S10x8192 (![1] : Fin 1 → Fin S10x8192.rank)
  bcast_S_S10x8192 : S_.BroadcastsInDim S10x8192 (![] : Fin 0 → Fin S10x8192.rank)
  transposes_S10x8192_S8192x10_1_0 : S10x8192.Transposes [1, 0] S8192x10
  shapeCasts_S10_S1x10 : S10.ShapeCasts S1x10
  inb_S512x10_S512x10_0_0 : ∀ a, (![0, 0] : Fin 2 → Nat) a + S512x10.size a ≤ S512x10.size a
  h_S512x10 : 0 < S512x10.numel
  shapeCasts_S512x10_S512x10 : S512x10.ShapeCasts S512x10
  inb_S512x784_S512x784_0_0 : ∀ a, (![0, 0] : Fin 2 → Nat) a + S512x784.size a ≤ S512x784.size a
  h_S512x784 : 0 < S512x784.numel
  bitsLt_bf16_f32 : FTy.bits .bf16 < FTy.bits .f32
  inb_S784x1024_S784x1024_0_0 : ∀ a, (![0, 0] : Fin 2 → Nat) a + S784x1024.size a ≤ S784x1024.size a
  h_S784x1024 : 0 < S784x1024.numel
  shapeCasts_S784x1024_S784x1024 : S784x1024.ShapeCasts S784x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S1024x10_S1024x10_0_0 : ∀ a, (![0, 0] : Fin 2 → Nat) a + S1024x10.size a ≤ S1024x10.size a
  h_S1024x10 : 0 < S1024x10.numel
  shapeCasts_S1024x10_S1024x10 : S1024x10.ShapeCasts S1024x10
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S512x10 : S1x10.Broadcasts S512x10
  gather_S784x262144_S8192x1_S784x8192_0_1_n_n_1_1_7841_wf : GatherDims.WF S784x262144 S8192x1 S784x8192 [0] [1] [] [1] [] 1 ![784, 1]
  gather_S262144_S8192x1_S8192_n_0_n_n_0_1_1_wf : GatherDims.WF S262144 S8192x1 S8192 [] [0] [] [0] [] 1 ![1]
  gather_S10x262144_S8192x1_S10x8192_0_1_n_n_1_1_101_wf : GatherDims.WF S10x262144 S8192x1 S10x8192 [0] [1] [] [1] [] 1 ![10, 1]
  dot_S512x784_S784x1024_S512x1024_1_0_0_1_n_n_wf : DotDims.WF S512x784 S784x1024 S512x1024 [1] [0] [0] [1] [] []
  dot_S512x1024_S1024x10_S512x10_1_0_0_1_n_n_wf : DotDims.WF S512x1024 S1024x10 S512x10 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x784.size a ≤ S512x784.size a
  hwx0_0 : ∀ i : grid0.Coords, EltTy.bits .f32 = 32 ∨ (Rect.block (s := S512x784) S512x784.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S784x1024.size a ≤ S784x8192.size a
  hwx0_1 : ∀ i : grid0.Coords, EltTy.bits .f32 = 32 ∨ (Rect.block (s := S784x8192) S784x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x8192.size a
  hwx0_2 : ∀ i : grid0.Coords, EltTy.bits .f32 = 32 ∨ (Rect.block (s := S1x8192) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x10.size a ≤ S8192x10.size a
  hwx0_3 : ∀ i : grid0.Coords, EltTy.bits .f32 = 32 ∨ (Rect.block (s := S8192x10) S1024x10.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x10.size a ≤ S1x10.size a
  hwx0_4 : ∀ i : grid0.Coords, EltTy.bits .f32 = 32 ∨ (Rect.block (s := S1x10) S1x10.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x10.size a ≤ S512x10.size a
  hwx0_5 : ∀ i : grid0.Coords, EltTy.bits .f32 = 32 ∨ (Rect.block (s := S512x10) S512x10.size (cc0_transform_5 i) (hinb0_5 i)).WholeWords (EltTy.packing .f32)

variable [Facts₀]

def gather_S784x262144_S8192x1_S784x8192_0_1_n_n_1_1_7841 : GatherDims S784x262144 S8192x1 S784x8192 where
  offsetDims := [0]
  collapsedSliceDims := [1]
  operandBatchingDims := []
  startIndicesBatchingDims := []
  startIndexMap := [1]
  indexVectorDim := 1
  sliceSizes := ![784, 1]
  wf := gather_S784x262144_S8192x1_S784x8192_0_1_n_n_1_1_7841_wf
def gather_S262144_S8192x1_S8192_n_0_n_n_0_1_1 : GatherDims S262144 S8192x1 S8192 where
  offsetDims := []
  collapsedSliceDims := [0]
  operandBatchingDims := []
  startIndicesBatchingDims := []
  startIndexMap := [0]
  indexVectorDim := 1
  sliceSizes := ![1]
  wf := gather_S262144_S8192x1_S8192_n_0_n_n_0_1_1_wf
def gather_S10x262144_S8192x1_S10x8192_0_1_n_n_1_1_101 : GatherDims S10x262144 S8192x1 S10x8192 where
  offsetDims := [0]
  collapsedSliceDims := [1]
  operandBatchingDims := []
  startIndicesBatchingDims := []
  startIndexMap := [1]
  indexVectorDim := 1
  sliceSizes := ![10, 1]
  wf := gather_S10x262144_S8192x1_S10x8192_0_1_n_n_1_1_101_wf
def dot_S512x784_S784x1024_S512x1024_1_0_0_1_n_n : DotDims S512x784 S784x1024 S512x1024 where
  lhsContracting := [1]
  rhsContracting := [0]
  lhsNonContracting := [0]
  rhsNonContracting := [1]
  lhsBatch := []
  rhsBatch := []
  wf := dot_S512x784_S784x1024_S512x1024_1_0_0_1_n_n_wf
def dot_S512x1024_S1024x10_S512x10_1_0_0_1_n_n : DotDims S512x1024 S1024x10 S512x10 where
  lhsContracting := [1]
  rhsContracting := [0]
  lhsNonContracting := [0]
  rhsNonContracting := [1]
  lhsBatch := []
  rhsBatch := []
  wf := dot_S512x1024_S1024x10_S512x10_1_0_0_1_n_n_wf

abbrev win0_0 : Pipeline.Window sig grid0 :=
  Pipeline.Window.ofSpec (Memref.whole main_arg0) S512x784.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S784x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1024x10.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x10.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S512x10.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S512x784 : Shape := ⟨2, ![512, 784]⟩
abbrev S8192 : Shape := ⟨1, ![8192]⟩
abbrev S784x262144 : Shape := ⟨2, ![784, 262144]⟩
abbrev S262144 : Shape := ⟨1, ![262144]⟩
abbrev S10x262144 : Shape := ⟨2, ![10, 262144]⟩
abbrev S10 : Shape := ⟨1, ![10]⟩
abbrev S_ : Shape := ⟨0, ![]⟩
abbrev S8192x1 : Shape := ⟨2, ![8192, 1]⟩
abbrev S1 : Shape := ⟨1, ![1]⟩
abbrev S1x1 : Shape := ⟨2, ![1, 1]⟩
abbrev S784x8192 : Shape := ⟨2, ![784, 8192]⟩
abbrev S512x8192 : Shape := ⟨2, ![512, 8192]⟩
abbrev S1x8192 : Shape := ⟨2, ![1, 8192]⟩
abbrev S10x8192 : Shape := ⟨2, ![10, 8192]⟩
abbrev S8192x10 : Shape := ⟨2, ![8192, 10]⟩
abbrev S512x10 : Shape := ⟨2, ![512, 10]⟩
abbrev S1x10 : Shape := ⟨2, ![1, 10]⟩

abbrev nBuf : Space → Nat
  | .hbm => 86
  | .vmem => 0
  | .smem => 0
  | _ => 0

abbrev bufTy : (tb : Table) → Fin (tcTables nBuf tb) → BufTy
  | .hbm, ⟨0, _⟩ => ⟨S512x784, .f32⟩
  | .hbm, ⟨1, _⟩ => ⟨S8192, .i32⟩
  | .hbm, ⟨2, _⟩ => ⟨S784x262144, .f32⟩
  | .hbm, ⟨3, _⟩ => ⟨S262144, .f32⟩
  | .hbm, ⟨4, _⟩ => ⟨S10x262144, .f32⟩
  | .hbm, ⟨5, _⟩ => ⟨S10, .f32⟩
  | .hbm, ⟨6, _⟩ => ⟨S_, .i32⟩
  | .hbm, ⟨7, _⟩ => ⟨S8192, .i32⟩
  | .hbm, ⟨8, _⟩ => ⟨S8192, .i1⟩
  | .hbm, ⟨9, _⟩ => ⟨S_, .i32⟩
  | .hbm, ⟨10, _⟩ => ⟨S8192, .i32⟩
  | .hbm, ⟨11, _⟩ => ⟨S8192, .i32⟩
  | .hbm, ⟨12, _⟩ => ⟨S8192, .i32⟩
  | .hbm, ⟨13, _⟩ => ⟨S8192x1, .i32⟩
  | .hbm, ⟨14, _⟩ => ⟨S1, .i32⟩
  | .hbm, ⟨15, _⟩ => ⟨S_, .i32⟩
  | .hbm, ⟨16, _⟩ => ⟨S8192x1, .i32⟩
  | .hbm, ⟨17, _⟩ => ⟨S8192x1, .i1⟩
  | .hbm, ⟨18, _⟩ => ⟨S1x1, .i32⟩
  | .hbm, ⟨19, _⟩ => ⟨S8192x1, .i32⟩
  | .hbm, ⟨20, _⟩ => ⟨S8192x1, .i1⟩
  | .hbm, ⟨21, _⟩ => ⟨S8192x1, .i1⟩
  | .hbm, ⟨22, _⟩ => ⟨S_, .i1⟩
  | .hbm, ⟨23, _⟩ => ⟨S8192, .i1⟩
  | .hbm, ⟨24, _⟩ => ⟨S784x8192, .f32⟩
  | .hbm, ⟨25, _⟩ => ⟨S784x8192, .i1⟩
  | .hbm, ⟨26, _⟩ => ⟨S_, .f32⟩
  | .hbm, ⟨27, _⟩ => ⟨S784x8192, .f32⟩
  | .hbm, ⟨28, _⟩ => ⟨S784x8192, .f32⟩
  | .hbm, ⟨29, _⟩ => ⟨S_, .i32⟩
  | .hbm, ⟨30, _⟩ => ⟨S8192, .i32⟩
  | .hbm, ⟨31, _⟩ => ⟨S8192, .i1⟩
  | .hbm, ⟨32, _⟩ => ⟨S_, .i32⟩
  | .hbm, ⟨33, _⟩ => ⟨S8192, .i32⟩
  | .hbm, ⟨34, _⟩ => ⟨S8192, .i32⟩
  | .hbm, ⟨35, _⟩ => ⟨S8192, .i32⟩
  | .hbm, ⟨36, _⟩ => ⟨S8192x1, .i32⟩
  | .hbm, ⟨37, _⟩ => ⟨S1, .i32⟩
  | .hbm, ⟨38, _⟩ => ⟨S_, .i32⟩
  | .hbm, ⟨39, _⟩ => ⟨S8192x1, .i32⟩
  | .hbm, ⟨40, _⟩ => ⟨S8192x1, .i1⟩
  | .hbm, ⟨41, _⟩ => ⟨S1x1, .i32⟩
  | .hbm, ⟨42, _⟩ => ⟨S8192x1, .i32⟩
  | .hbm, ⟨43, _⟩ => ⟨S8192x1, .i1⟩
  | .hbm, ⟨44, _⟩ => ⟨S8192x1, .i1⟩
  | .hbm, ⟨45, _⟩ => ⟨S_, .i1⟩
  | .hbm, ⟨46, _⟩ => ⟨S8192, .i1⟩
  | .hbm, ⟨47, _⟩ => ⟨S8192, .f32⟩
  | .hbm, ⟨48, _⟩ => ⟨S_, .f32⟩
  | .hbm, ⟨49, _⟩ => ⟨S8192, .f32⟩
  | .hbm, ⟨50, _⟩ => ⟨S8192, .f32⟩
  | .hbm, ⟨51, _⟩ => ⟨S512x8192, .f32⟩
  | .hbm, ⟨52, _⟩ => ⟨S1x8192, .f32⟩
  | .hbm, ⟨53, _⟩ => ⟨S512x8192, .f32⟩
  | .hbm, ⟨54, _⟩ => ⟨S512x8192, .f32⟩
  | .hbm, ⟨55, _⟩ => ⟨S_, .f32⟩
  | .hbm, ⟨56, _⟩ => ⟨S512x8192, .f32⟩
  | .hbm, ⟨57, _⟩ => ⟨S512x8192, .f32⟩
  | .hbm, ⟨58, _⟩ => ⟨S_, .i32⟩
  | .hbm, ⟨59, _⟩ => ⟨S8192, .i32⟩
  | .hbm, ⟨60, _⟩ => ⟨S8192, .i1⟩
  | .hbm, ⟨61, _⟩ => ⟨S_, .i32⟩
  | .hbm, ⟨62, _⟩ => ⟨S8192, .i32⟩
  | .hbm, ⟨63, _⟩ => ⟨S8192, .i32⟩
  | .hbm, ⟨64, _⟩ => ⟨S8192, .i32⟩
  | .hbm, ⟨65, _⟩ => ⟨S8192x1, .i32⟩
  | .hbm, ⟨66, _⟩ => ⟨S1, .i32⟩
  | .hbm, ⟨67, _⟩ => ⟨S_, .i32⟩
  | .hbm, ⟨68, _⟩ => ⟨S8192x1, .i32⟩
  | .hbm, ⟨69, _⟩ => ⟨S8192x1, .i1⟩
  | .hbm, ⟨70, _⟩ => ⟨S1x1, .i32⟩
  | .hbm, ⟨71, _⟩ => ⟨S8192x1, .i32⟩
  | .hbm, ⟨72, _⟩ => ⟨S8192x1, .i1⟩
  | .hbm, ⟨73, _⟩ => ⟨S8192x1, .i1⟩
  | .hbm, ⟨74, _⟩ => ⟨S_, .i1⟩
  | .hbm, ⟨75, _⟩ => ⟨S8192, .i1⟩
  | .hbm, ⟨76, _⟩ => ⟨S10x8192, .f32⟩
  | .hbm, ⟨77, _⟩ => ⟨S10x8192, .i1⟩
  | .hbm, ⟨78, _⟩ => ⟨S_, .f32⟩
  | .hbm, ⟨79, _⟩ => ⟨S10x8192, .f32⟩
  | .hbm, ⟨80, _⟩ => ⟨S10x8192, .f32⟩
  | .hbm, ⟨81, _⟩ => ⟨S8192x10, .f32⟩
  | .hbm, ⟨82, _⟩ => ⟨S512x10, .f32⟩
  | .hbm, ⟨83, _⟩ => ⟨S1x10, .f32⟩
  | .hbm, ⟨84, _⟩ => ⟨S512x10, .f32⟩
  | .hbm, ⟨85, _⟩ => ⟨S512x10, .f32⟩
  | _, _ => ⟨S512x784, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v0 : Ref sig .tc := ⟨.hbm, 28, rfl⟩
abbrev main_call1_c : Ref sig .tc := ⟨.hbm, 29, rfl⟩
abbrev main_call1_v0 : Ref sig .tc := ⟨.hbm, 30, rfl⟩
abbrev main_call1_v1 : Ref sig .tc := ⟨.hbm, 31, rfl⟩
abbrev main_call1_c_0 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_v5 : Ref sig .tc := ⟨.hbm, 36, rfl⟩
abbrev main_call1_c_1 : Ref sig .tc := ⟨.hbm, 37, rfl⟩
abbrev main_call1_c_2 : Ref sig .tc := ⟨.hbm, 38, rfl⟩
abbrev main_call1_v6 : Ref sig .tc := ⟨.hbm, 39, rfl⟩
abbrev main_call1_v7 : Ref sig .tc := ⟨.hbm, 40, rfl⟩
abbrev main_call1_v8 : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_c_3 : Ref sig .tc := ⟨.hbm, 45, rfl⟩
abbrev main_call1_v12 : Ref sig .tc := ⟨.hbm, 46, rfl⟩
abbrev main_call1_v13 : Ref sig .tc := ⟨.hbm, 47, rfl⟩
abbrev main_call1_cst : Ref sig .tc := ⟨.hbm, 48, rfl⟩
abbrev main_call1_v14 : Ref sig .tc := ⟨.hbm, 49, rfl⟩
abbrev main_v1 : Ref sig .tc := ⟨.hbm, 50, rfl⟩
abbrev main_v2 : Ref sig .tc := ⟨.hbm, 51, rfl⟩
abbrev main_v3 : Ref sig .tc := ⟨.hbm, 52, rfl⟩
abbrev main_v4 : Ref sig .tc := ⟨.hbm, 53, rfl⟩
abbrev main_v5 : Ref sig .tc := ⟨.hbm, 54, rfl⟩
abbrev main_call2_cst : Ref sig .tc := ⟨.hbm, 55, rfl⟩
abbrev main_call2_v0 : Ref sig .tc := ⟨.hbm, 56, rfl⟩
abbrev main_v6 : Ref sig .tc := ⟨.hbm, 57, rfl⟩
abbrev main_call3_c : Ref sig .tc := ⟨.hbm, 58, rfl⟩
abbrev main_call3_v0 : Ref sig .tc := ⟨.hbm, 59, rfl⟩
abbrev main_call3_v1 : Ref sig .tc := ⟨.hbm, 60, rfl⟩
abbrev main_call3_c_0 : Ref sig .tc := ⟨.hbm, 61, rfl⟩
abbrev main_call3_v2 : Ref sig .tc := ⟨.hbm, 62, rfl⟩
abbrev main_call3_v3 : Ref sig .tc := ⟨.hbm, 63, rfl⟩
abbrev main_call3_v4 : Ref sig .tc := ⟨.hbm, 64, rfl⟩
abbrev main_call3_v5 : Ref sig .tc := ⟨.hbm, 65, rfl⟩
abbrev main_call3_c_1 : Ref sig .tc := ⟨.hbm, 66, rfl⟩
abbrev main_call3_c_2 : Ref sig .tc := ⟨.hbm, 67, rfl⟩
abbrev main_call3_v6 : Ref sig .tc := ⟨.hbm, 68, rfl⟩
abbrev main_call3_v7 : Ref sig .tc := ⟨.hbm, 69, rfl⟩
abbrev main_call3_v8 : Ref sig .tc := ⟨.hbm, 70, rfl⟩
abbrev main_call3_v9 : Ref sig .tc := ⟨.hbm, 71, rfl⟩
abbrev main_call3_v10 : Ref sig .tc := ⟨.hbm, 72, rfl⟩
abbrev main_call3_v11 : Ref sig .tc := ⟨.hbm, 73, rfl⟩
abbrev main_call3_c_3 : Ref sig .tc := ⟨.hbm, 74, rfl⟩
abbrev main_call3_v12 : Ref sig .tc := ⟨.hbm, 75, rfl⟩
abbrev main_call3_v13 : Ref sig .tc := ⟨.hbm, 76, rfl⟩
abbrev main_call3_v14 : Ref sig .tc := ⟨.hbm, 77, rfl⟩
abbrev main_call3_cst : Ref sig .tc := ⟨.hbm, 78, rfl⟩
abbrev main_call3_v15 : Ref sig .tc := ⟨.hbm, 79, rfl⟩
abbrev main_v7 : Ref sig .tc := ⟨.hbm, 80, rfl⟩
abbrev main_v8 : Ref sig .tc := ⟨.hbm, 81, rfl⟩
abbrev main_v9 : Ref sig .tc := ⟨.hbm, 82, rfl⟩
abbrev main_v10 : Ref sig .tc := ⟨.hbm, 83, rfl⟩
abbrev main_v11 : Ref sig .tc := ⟨.hbm, 84, rfl⟩
abbrev main_v12 : Ref sig .tc := ⟨.hbm, 85, rfl⟩

abbrev nD : Nat := 1
abbrev τ : Topo := Topo.v7x

variable {F : FTy → Type} [FloatOps F]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  reducesTo_S8192x1_S8192_d1 : S8192x1.ReducesTo [1] S8192
  h_S_ : 0 < S_.numel
  bcast_S8192_S784x8192_1 : S8192.BroadcastsInDim S784x8192 (![1] : Fin 1 → Fin S784x8192.rank)
  bcast_S_S784x8192 : S_.BroadcastsInDim S784x8192 (![] : Fin 0 → Fin S784x8192.rank)
  bcast_S8192_S1x8192_1 : S8192.BroadcastsInDim S1x8192 (![1] : Fin 1 → Fin S1x8192.rank)
  bcast_S1x8192_S512x8192_0_1 : S1x8192.BroadcastsInDim S512x8192 (![0, 1] : Fin 2 → Fin S512x8192.rank)
  bcast_S_S512x8192 : S_.BroadcastsInDim S512x8192 (![] : Fin 0 → Fin S512x8192.rank)
  bcast_S8192_S10x8192_1 : S8192.BroadcastsInDim S10x8192 (![1] : Fin 1 → Fin S10x8192.rank)
  bcast_S_S10x8192 : S_.BroadcastsInDim S10x8192 (![] : Fin 0 → Fin S10x8192.rank)
  transposes_S10x8192_S8192x10_1_0 : S10x8192.Transposes [1, 0] S8192x10
  bcast_S10_S1x10_1 : S10.BroadcastsInDim S1x10 (![1] : Fin 1 → Fin S1x10.rank)
  bcast_S1x10_S512x10_0_1 : S1x10.BroadcastsInDim S512x10 (![0, 1] : Fin 2 → Fin S512x10.rank)
  gather_S784x262144_S8192x1_S784x8192_0_1_n_n_1_1_7841_wf : GatherDims.WF S784x262144 S8192x1 S784x8192 [0] [1] [] [1] [] 1 ![784, 1]
  gather_S262144_S8192x1_S8192_n_0_n_n_0_1_1_wf : GatherDims.WF S262144 S8192x1 S8192 [] [0] [] [0] [] 1 ![1]
  dot_S512x784_S784x8192_S512x8192_1_0_0_1_n_n_wf : DotDims.WF S512x784 S784x8192 S512x8192 [1] [0] [0] [1] [] []
  gather_S10x262144_S8192x1_S10x8192_0_1_n_n_1_1_101_wf : GatherDims.WF S10x262144 S8192x1 S10x8192 [0] [1] [] [1] [] 1 ![10, 1]
  dot_S512x8192_S8192x10_S512x10_1_0_0_1_n_n_wf : DotDims.WF S512x8192 S8192x10 S512x10 [1] [0] [0] [1] [] []

variable [Facts₀]

def gather_S784x262144_S8192x1_S784x8192_0_1_n_n_1_1_7841 : GatherDims S784x262144 S8192x1 S784x8192 where
  offsetDims := [0]
  collapsedSliceDims := [1]
  operandBatchingDims := []
  startIndicesBatchingDims := []
  startIndexMap := [1]
  indexVectorDim := 1
  sliceSizes := ![784, 1]
  wf := gather_S784x262144_S8192x1_S784x8192_0_1_n_n_1_1_7841_wf
def gather_S262144_S8192x1_S8192_n_0_n_n_0_1_1 : GatherDims S262144 S8192x1 S8192 where
  offsetDims := []
  collapsedSliceDims := [0]
  operandBatchingDims := []
  startIndicesBatchingDims := []
  startIndexMap := [0]
  indexVectorDim := 1
  sliceSizes := ![1]
  wf := gather_S262144_S8192x1_S8192_n_0_n_n_0_1_1_wf
def dot_S512x784_S784x8192_S512x8192_1_0_0_1_n_n : DotDims S512x784 S784x8192 S512x8192 where
  lhsContracting := [1]
  rhsContracting := [0]
  lhsNonContracting := [0]
  rhsNonContracting := [1]
  lhsBatch := []
  rhsBatch := []
  wf := dot_S512x784_S784x8192_S512x8192_1_0_0_1_n_n_wf
def gather_S10x262144_S8192x1_S10x8192_0_1_n_n_1_1_101 : GatherDims S10x262144 S8192x1 S10x8192 where
  offsetDims := [0]
  collapsedSliceDims := [1]
  operandBatchingDims := []
  startIndicesBatchingDims := []
  startIndexMap := [1]
  indexVectorDim := 1
  sliceSizes := ![10, 1]
  wf := gather_S10x262144_S8192x1_S10x8192_0_1_n_n_1_1_101_wf
def dot_S512x8192_S8192x10_S512x10_1_0_0_1_n_n : DotDims S512x8192 S8192x10 S512x10 where
  lhsContracting := [1]
  rhsContracting := [0]
  lhsNonContracting := [0]
  rhsNonContracting := [1]
  lhsBatch := []
  rhsBatch := []
  wf := dot_S512x8192_S8192x10_S512x10_1_0_0_1_n_n_wf

class Facts : Prop extends Facts₀ where

variable [Facts]
-- ==== Proof.KernelPieces.lean ====
/-
  What one grid point leaves behind, case by case, as the body's payloads.

  The body keeps a running sum acc of shape [512, 10] in a scratch buffer. At every point it stores
  acc + relu(x·w1 + b1)·w2 of the point's blocks into the scratch (the payload of its second store); at the first
  point it first stores the zero block and reads it back as acc; at the last point it then reads the new sum back and
  stores sum + b2 into the output block. So the scratch ends at the second payload of the blocks and of what it held
  (the zero block at the first point), and the last point's output block at the third payload of that sum.
-/
import proofs.«129695_j51470888075432_1_alg».proof.Proof.Gen.KernelIdeal.Frame
import Idealize.ShloMosaic.Lib.Pipeline.Value

set_option maxRecDepth 16384

noncomputable section

namespace Cert.KernelIdeal.Pieces

open Cert.KernelIdeal Cert.KernelIdeal.Gen Idealize.ShloMosaic Idealize.ShloMosaic.TcCoe Idealize.ShloMosaic.Tactic Idealize.SL.Sem

variable {F : FTy → Type} [FloatOps F]

theorem hz : (![0, 0] : Fin 2 → Nat) = fun _ => 0 := funext fun a => by fin_cases a <;> rfl

/-- A middle point: the scratch, holding acc, ends at acc plus the point's product. -/
theorem scratch_B (c : Dev nD) (i : grid0.Coords) (arg1 : Memref sig .tc .vmem S512x784 .f32) (harg1 : arg1.IsWhole) (arg2 : Memref sig .tc .vmem S784x1024 .f32) (harg2 : arg2.IsWhole) (arg3 : Memref sig .tc .vmem S1x1024 .f32) (harg3 : arg3.IsWhole) (arg4 : Memref sig .tc .vmem S1024x10 .f32) (harg4 : arg4.IsWhole) (arg5 : Memref sig .tc .vmem S1x10 .f32) (harg5 : arg5.IsWhole) (arg6 : Memref sig .tc .vmem S512x10 .f32) (harg6 : arg6.IsWhole) (arg7 : Memref sig .tc .vmem S512x10 .f32) (harg7 : arg7.IsWhole) (hc0 : ¬cond0_0 i) (hc1 : ¬cond0_1 i)
    (x0 : Vec F S512x784 .f32) (x1 : Vec F S784x1024 .f32) (x2 : Vec F S1x1024 .f32) (x3 : Vec F S1024x10 .f32) (x4 : Vec F S1x10 .f32) (xs0 : Vec F S512x10 .f32) :
    sout0_B_0 c i arg1 harg1 arg2 harg2 arg3 harg3 arg4 harg4 arg5 harg5 arg6 harg6 arg7 harg7 hc0 hc1 x0 x1 x2 x3 x4 xs0 = k0_pay2 x0 x1 x2 x3 xs0 := by
  unfold sout0_B_0
  rw [View.read_writes_eq_canon _ _ _ (scover0_B_0 c i arg1 harg1 arg2 harg2 arg3 harg3 arg4 harg4 arg5 harg5 arg6 harg6 arg7 harg7 hc0 hc1 x0 x1 x2 x3 x4 xs0)]
  unfold kernelRun0_B
  dsimp only
  sl_unfold_words
  rw [View.canon_unit_zero hz]
  simp only [View.readAt_eq_ld, harg1.read_unread, harg2.read_unread, harg3.read_unread, harg4.read_unread, harg7.read_unread,
    View.ld_unit_zero (S := S512x784) hz, View.ld_unit_zero (S := S784x1024) hz, View.ld_unit_zero (S := S1x1024) hz,
    View.ld_unit_zero (S := S1024x10) hz, View.ld_unit_zero (S := S512x10) hz]

/-- The first point: the scratch is reset to the zero block, then ends at zero plus the point's product. -/
theorem scratch_A (c : Dev nD) (i : grid0.Coords) (arg1 : Memref sig .tc .vmem S512x784 .f32) (harg1 : arg1.IsWhole) (arg2 : Memref sig .tc .vmem S784x1024 .f32) (harg2 : arg2.IsWhole) (arg3 : Memref sig .tc .vmem S1x1024 .f32) (harg3 : arg3.IsWhole) (arg4 : Memref sig .tc .vmem S1024x10 .f32) (harg4 : arg4.IsWhole) (arg5 : Memref sig .tc .vmem S1x10 .f32) (harg5 : arg5.IsWhole) (arg6 : Memref sig .tc .vmem S512x10 .f32) (harg6 : arg6.IsWhole) (arg7 : Memref sig .tc .vmem S512x10 .f32) (harg7 : arg7.IsWhole) (hc0 : cond0_0 i) (hc1 : ¬cond0_1 i)
    (x0 : Vec F S512x784 .f32) (x1 : Vec F S784x1024 .f32) (x2 : Vec F S1x1024 .f32) (x3 : Vec F S1024x10 .f32) (x4 : Vec F S1x10 .f32) :
    sout0_A_0 c i arg1 harg1 arg2 harg2 arg3 harg3 arg4 harg4 arg5 harg5 arg6 harg6 arg7 harg7 hc0 hc1 x0 x1 x2 x3 x4 = k0_pay2 x0 x1 x2 x3 (k0_pay1 (F := F)) := by
  unfold sout0_A_0
  rw [View.read_writes_eq_canon _ _ _ (scover0_A_0 c i arg1 harg1 arg2 harg2 arg3 harg3 arg4 harg4 arg5 harg5 arg6 harg6 arg7 harg7 hc0 hc1 x0 x1 x2 x3 x4)]
  unfold kernelRun0_A
  dsimp only
  sl_unfold_words
  rw [View.canon_cons_unit_zero (S := S512x10) hz, View.readCov_unit_zero (S := S512x10) _ hz]
  simp only [View.readAt_eq_ld, harg1.read_unread, harg2.read_unread, harg3.read_unread, harg4.read_unread,
    View.ld_unit_zero (S := S512x784) hz, View.ld_unit_zero (S := S784x1024) hz, View.ld_unit_zero (S := S1x1024) hz,
    View.ld_unit_zero (S := S1024x10) hz, View.ld_unit_zero (S := S512x10) hz, View.readCov_unit_zero (S := S512x10) _ hz]

/-- The last point: the scratch as at a middle point. -/
theorem scratch_C (c : Dev nD) (i : grid0.Coords) (arg1 : Memref sig .tc .vmem S512x784 .f32) (harg1 : arg1.IsWhole) (arg2 : Memref sig .tc .vmem S784x1024 .f32) (harg2 : arg2.IsWhole) (arg3 : Memref sig .tc .vmem S1x1024 .f32) (harg3 : arg3.IsWhole) (arg4 : Memref sig .tc .vmem S1024x10 .f32) (harg4 : arg4.IsWhole) (arg5 : Memref sig .tc .vmem S1x10 .f32) (harg5 : arg5.IsWhole) (arg6 : Memref sig .tc .vmem S512x10 .f32) (harg6 : arg6.IsWhole) (arg7 : Memref sig .tc .vmem S512x10 .f32) (harg7 : arg7.IsWhole) (hc0 : ¬cond0_0 i) (hc1 : cond0_1 i)
    (x0 : Vec F S512x784 .f32) (x1 : Vec F S784x1024 .f32) (x2 : Vec F S1x1024 .f32) (x3 : Vec F S1024x10 .f32) (x4 : Vec F S1x10 .f32) (xs0 : Vec F S512x10 .f32) :
    sout0_C_0 c i arg1 harg1 arg2 harg2 arg3 harg3 arg4 harg4 arg5 harg5 arg6 harg6 arg7 harg7 hc0 hc1 x0 x1 x2 x3 x4 xs0 = k0_pay2 x0 x1 x2 x3 xs0 := by
  unfold sout0_C_0
  rw [View.read_writes_eq_canon _ _ _ (scover0_C_0 c i arg1 harg1 arg2 harg2 arg3 harg3 arg4 harg4 arg5 harg5 arg6 harg6 arg7 harg7 hc0 hc1 x0 x1 x2 x3 x4 xs0)]
  unfold kernelRun0_C
  dsimp only
  sl_unfold_words
  rw [View.canon_unit_zero hz]
  simp only [View.readAt_eq_ld, harg1.read_unread, harg2.read_unread, harg3.read_unread, harg4.read_unread, harg7.read_unread,
    View.ld_unit_zero (S := S512x784) hz, View.ld_unit_zero (S := S784x1024) hz, View.ld_unit_zero (S := S1x1024) hz,
    View.ld_unit_zero (S := S1024x10) hz, View.ld_unit_zero (S := S512x10) hz]

/-- The last point: the output block is the new sum plus the output bias. -/
theorem out_C (c : Dev nD) (i : grid0.Coords) (arg1 : Memref sig .tc .vmem S512x784 .f32) (harg1 : arg1.IsWhole) (arg2 : Memref sig .tc .vmem S784x1024 .f32) (harg2 : arg2.IsWhole) (arg3 : Memref sig .tc .vmem S1x1024 .f32) (harg3 : arg3.IsWhole) (arg4 : Memref sig .tc .vmem S1024x10 .f32) (harg4 : arg4.IsWhole) (arg5 : Memref sig .tc .vmem S1x10 .f32) (harg5 : arg5.IsWhole) (arg6 : Memref sig .tc .vmem S512x10 .f32) (harg6 : arg6.IsWhole) (arg7 : Memref sig .tc .vmem S512x10 .f32) (harg7 : arg7.IsWhole) (hc0 : ¬cond0_0 i) (hc1 : cond0_1 i)
    (x0 : Vec F S512x784 .f32) (x1 : Vec F S784x1024 .f32) (x2 : Vec F S1x1024 .f32) (x3 : Vec F S1024x10 .f32) (x4 : Vec F S1x10 .f32) (xs0 : Vec F S512x10 .f32) :
    out0_C_5 c i arg1 harg1 arg2 harg2 arg3 harg3 arg4 harg4 arg5 harg5 arg6 harg6 arg7 harg7 hc0 hc1 x0 x1 x2 x3 x4 xs0 = k0_pay3 (k0_pay2 x0 x1 x2 x3 xs0) x4 := by
  unfold out0_C_5
  rw [View.read_writes_eq_canon _ _ _ (cover0_C_5 c i arg1 harg1 arg2 harg2 arg3 harg3 arg4 harg4 arg5 harg5 arg6 harg6 arg7 harg7 hc0 hc1 x0 x1 x2 x3 x4 xs0)]
  unfold kernelRun0_C
  dsimp only
  sl_unfold_words
  rw [View.canon_unit_zero hz]
  simp only [View.readAt_eq_ld, harg1.read_unread, harg2.read_unread, harg3.read_unread, harg4.read_unread, harg5.read_unread, harg7.read_unread,
    View.ld_unit_zero (S := S512x784) hz, View.ld_unit_zero (S := S784x1024) hz, View.ld_unit_zero (S := S1x1024) hz,
    View.ld_unit_zero (S := S1024x10) hz, View.ld_unit_zero (S := S1x10) hz, View.ld_unit_zero (S := S512x10) hz,
    View.readCov_unit_zero (S := S512x10) _ hz]

end Cert.KernelIdeal.Pieces

end
-- ==== Proof.KernelSum.lean ====
/-
  The kernel's result as a sum over its grid. The grid has eight points; point t stages rows 1024·t … 1024·t + 1023
  of the gathered weights. Each point adds its product relu(x·w1 + b1)·w2 (a [512, 10] block) to a running sum kept in
  a scratch buffer, the first point starting from the zero block; the last point writes the sum plus the output bias
  into the one output block, which is the whole result array. So the array ends at
      (0 + Σ_{t < 8} productₜ) + b2
  where the sum is over the points in order; as a sum in a commutative monoid the order is immaterial.
-/
import proofs.«129695_j51470888075432_1_alg».proof.Proof.Gen.KernelIdeal.Value
import proofs.«129695_j51470888075432_1_alg».proof.Proof.KernelPieces
import Idealize.ShloMosaic.Lib.Pipeline.Value
import Idealize.ShloMosaic.Lib.ValueIdx

set_option maxRecDepth 16384

noncomputable section

namespace Cert.KernelIdeal.Fold

open Cert.KernelIdeal Cert.KernelIdeal.Gen Cert.KernelIdeal.Value Idealize.ShloMosaic Idealize.ShloMosaic.TcCoe Idealize.SL.Sem
open Idealize.ShloMosaic.Pipeline (Dat)

variable {F : FTy → Type} [FloatOps F]

/-- One point's product: relu(x·w1 + b1)·w2 of its blocks. -/
def prod (x0 : Vec F S512x784 .f32) (x1 : Vec F S784x1024 .f32) (x2 : Vec F S1x1024 .f32) (x3 : Vec F S1024x10 .f32) :
    FVec F S512x10 .f32 :=
  matmul dot_S512x1024_S1024x10_S512x10_1_0_0_1_n_n none
    (truncf .bf16
      (maximumf
        (addf
          (matmul dot_S512x784_S784x1024_S512x1024_1_0_0_1_n_n none (truncf .bf16 x0 bitsLt_bf16_f32)
            (truncf .bf16 x1 bitsLt_bf16_f32) (constant S512x1024 .f32 0x00000000#32))
          (broadcastTo S512x1024 x2 broadcasts_S1x1024_S512x1024))
        (broadcast S512x1024 (Scalar.ofBits .f32 0x00000000#32)))
      bitsLt_bf16_f32)
    (truncf .bf16 x3 bitsLt_bf16_f32) (constant S512x10 .f32 0x00000000#32)

/-- The body's accumulating store writes what the scratch held plus the point's product. -/
theorem pay2_eq (x0 : Vec F S512x784 .f32) (x1 : Vec F S784x1024 .f32) (x2 : Vec F S1x1024 .f32) (x3 : Vec F S1024x10 .f32)
    (acc : Vec F S512x10 .f32) : k0_pay2 x0 x1 x2 x3 acc = addf acc (prod x0 x1 x2 x3) := by
  unfold k0_pay2 prod
  simp only [shapeCast_self]

/-- The body's last store writes the sum plus the bias row broadcast over the 512 samples. -/
theorem pay3_eq (s : Vec F S512x10 .f32) (b : Vec F S1x10 .f32) :
    k0_pay3 s b = addf s (broadcastTo S512x10 b broadcasts_S1x10_S512x10) := by
  unfold k0_pay3
  simp only [shapeCast_self]

variable (m : (ℓ : Loc nD τ sig) → Buf (Elt F) ℓ) (ρ : Dev nD → PrngReg)

/-- Point t's blocks, at their literal types. -/
abbrev xb (c : Dev nD) (t : Fin cfg0.N) : Vec F S512x784 .f32 := iblk m c 0 t
abbrev w1b (c : Dev nD) (t : Fin cfg0.N) : Vec F S784x1024 .f32 := iblk m c 1 t
abbrev b1b (c : Dev nD) (t : Fin cfg0.N) : Vec F S1x1024 .f32 := iblk m c 2 t
abbrev w2b (c : Dev nD) (t : Fin cfg0.N) : Vec F S1024x10 .f32 := iblk m c 3 t
abbrev b2b (c : Dev nD) (t : Fin cfg0.N) : Vec F S1x10 .f32 := iblk m c 4 t

/-- Point t's product. -/
abbrev prodAt (c : Dev nD) (t : Fin cfg0.N) : FVec F S512x10 .f32 := prod (xb m c t) (w1b m c t) (b1b m c t) (w2b m c t)

/-- At a point that is not the first, the scratch goes from acc to acc plus the point's product. -/
theorem step_eq (c : Dev nD) (n : ℕ) (h : n < cfg0.N) (hn : ¬n % 8 = 0) (acc : Vec F S512x10 .f32) :
    scAt0_0 m c n h acc = addf acc (prodAt m c ⟨n, h⟩) := by
  unfold scAt0_0
  rw [dif_neg hn]
  by_cases h7 : n % 8 = 7
  · rw [dif_pos h7]
    exact (Pieces.scratch_C c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) (ms0_5 (⟨n, h⟩ : Fin cfg0.N)) (hs0_5 (⟨n, h⟩ : Fin cfg0.N)) scM0_0 (Memref.isWhole_whole _) _ _ (iblk m c 0 (⟨n, h⟩ : Fin cfg0.N)) (iblk m c 1 (⟨n, h⟩ : Fin cfg0.N)) (iblk m c 2 (⟨n, h⟩ : Fin cfg0.N)) (iblk m c 3 (⟨n, h⟩ : Fin cfg0.N)) (iblk m c 4 (⟨n, h⟩ : Fin cfg0.N)) acc).trans
      (pay2_eq (iblk m c 0 (⟨n, h⟩ : Fin cfg0.N)) (iblk m c 1 (⟨n, h⟩ : Fin cfg0.N)) (iblk m c 2 (⟨n, h⟩ : Fin cfg0.N)) (iblk m c 3 (⟨n, h⟩ : Fin cfg0.N)) acc)
  · rw [dif_neg h7]
    exact (Pieces.scratch_B c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) (ms0_5 (⟨n, h⟩ : Fin cfg0.N)) (hs0_5 (⟨n, h⟩ : Fin cfg0.N)) scM0_0 (Memref.isWhole_whole _) _ _ (iblk m c 0 (⟨n, h⟩ : Fin cfg0.N)) (iblk m c 1 (⟨n, h⟩ : Fin cfg0.N)) (iblk m c 2 (⟨n, h⟩ : Fin cfg0.N)) (iblk m c 3 (⟨n, h⟩ : Fin cfg0.N)) (iblk m c 4 (⟨n, h⟩ : Fin cfg0.N)) acc).trans
      (pay2_eq (iblk m c 0 (⟨n, h⟩ : Fin cfg0.N)) (iblk m c 1 (⟨n, h⟩ : Fin cfg0.N)) (iblk m c 2 (⟨n, h⟩ : Fin cfg0.N)) (iblk m c 3 (⟨n, h⟩ : Fin cfg0.N)) acc)

/-- At the first point the scratch ends at the zero block plus the point's product, whatever it held. -/
theorem first_eq (c : Dev nD) (n : ℕ) (h : n < cfg0.N) (h0 : n % 8 = 0) (acc : Vec F S512x10 .f32) :
    scAt0_0 m c n h acc = addf (k0_pay1 (F := F)) (prodAt m c ⟨n, h⟩) := by
  have hN : n < 8 := lt_of_lt_of_eq h (show cfg0.N = 8 from N_0)
  have h7 : ¬n % 8 = 7 := by omega
  unfold scAt0_0
  rw [dif_pos h0, dif_neg h7]
  exact (Pieces.scratch_A c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) (ms0_5 (⟨n, h⟩ : Fin cfg0.N)) (hs0_5 (⟨n, h⟩ : Fin cfg0.N)) scM0_0 (Memref.isWhole_whole _) _ _ (iblk m c 0 (⟨n, h⟩ : Fin cfg0.N)) (iblk m c 1 (⟨n, h⟩ : Fin cfg0.N)) (iblk m c 2 (⟨n, h⟩ : Fin cfg0.N)) (iblk m c 3 (⟨n, h⟩ : Fin cfg0.N)) (iblk m c 4 (⟨n, h⟩ : Fin cfg0.N))).trans
    (pay2_eq (iblk m c 0 (⟨n, h⟩ : Fin cfg0.N)) (iblk m c 1 (⟨n, h⟩ : Fin cfg0.N)) (iblk m c 2 (⟨n, h⟩ : Fin cfg0.N)) (iblk m c 3 (⟨n, h⟩ : Fin cfg0.N)) (k0_pay1 (F := F)))

/-- The last point. -/
abbrev tLast : Fin cfg0.N := ⟨7, by rw [show cfg0.N = 8 from N_0]; decide⟩

/-- The result: the running sum after the last point plus the bias row. -/
def result (c : Dev nD) : Vec F S512x10 .f32 :=
  addf ((outsAt0 m c 7 (tLast).isLt).2) (broadcastTo S512x10 (b2b m c tLast) broadcasts_S1x10_S512x10)

/-- What the last point leaves in the output block is the result. -/
theorem out_last (c : Dev nD) : (outsAt0 m c 7 (tLast).isLt).1 = result m c := by
  have e := outsAt0_C m c tLast (by decide) (by decide)
  have e1 : (outsAt0 m c 7 (tLast).isLt).1 = _ := congrArg Prod.fst e
  have e2 : (outsAt0 m c 7 (tLast).isLt).2 = _ := congrArg Prod.snd e
  unfold result
  rw [e2]
  refine e1.trans ?_
  dsimp only
  refine (Pieces.out_C c (grid0.coords tLast) (ms0_0 tLast) (hs0_0 tLast) (ms0_1 tLast) (hs0_1 tLast) (ms0_2 tLast) (hs0_2 tLast) (ms0_3 tLast) (hs0_3 tLast) (ms0_4 tLast) (hs0_4 tLast) (ms0_5 tLast) (hs0_5 tLast) scM0_0 (Memref.isWhole_whole _) _ _ (iblk m c 0 tLast) (iblk m c 1 tLast) (iblk m c 2 tLast) (iblk m c 3 tLast) (iblk m c 4 tLast) _).trans ?_
  refine (pay3_eq _ _).trans ?_
  refine congrArg (fun s => addf s (broadcastTo S512x10 (iblk m c 4 tLast) broadcasts_S1x10_S512x10)) ?_
  exact (Pieces.scratch_C c (grid0.coords tLast) (ms0_0 tLast) (hs0_0 tLast) (ms0_1 tLast) (hs0_1 tLast) (ms0_2 tLast) (hs0_2 tLast) (ms0_3 tLast) (hs0_3 tLast) (ms0_4 tLast) (hs0_4 tLast) (ms0_5 tLast) (hs0_5 tLast) scM0_0 (Memref.isWhole_whole _) _ _ (iblk m c 0 tLast) (iblk m c 1 tLast) (iblk m c 2 tLast) (iblk m c 3 tLast) (iblk m c 4 tLast) _).symm

end Cert.KernelIdeal.Fold

end
-- ==== Proof.KernelValue.lean ====
/-
  The kernel's result array, and its entries as sums. Only the last grid point writes the output block back, and that
  block is the whole [512, 10] array, so the array ends at what the last point stored: the running sum plus the bias
  row. Over the extended reals the running sum after point n is the sum of the products of points 0 … n (the zero block
  it starts from adds nothing), so entry (p, q) of the result is Σ_{t < 8} productₜ[p, q] + b2row[0, q].
-/
import proofs.«129695_j51470888075432_1_alg».proof.Proof.KernelSum
import Idealize.ShloMosaic.Lib.ValueLayout
import Idealize.ShloMosaic.PureOps.Ideal.Laws

set_option maxRecDepth 16384

noncomputable section

namespace Cert.KernelIdeal.Fold

open Cert.KernelIdeal Cert.KernelIdeal.Gen Cert.KernelIdeal.Value Idealize.ShloMosaic Idealize.ShloMosaic.TcCoe Idealize.SL.Sem
open Idealize.ShloMosaic.Pipeline (Dat)
open Idealize.ShloMosaic.ValueIdx

section AnyValues

variable {F : FTy → Type} [FloatOps F]
variable (m : (ℓ : Loc nD τ sig) → Buf (Elt F) ℓ) (ρ : Dev nD → PrngReg)

/-- The result as contents of the result array. -/
abbrev resultBuf (c : Dev nD) : Buf (Elt F) ((c : Thread nD τ).loc main_v6) := result m c

/-- The one write-back, at the last point, writes the result: its block at zero offsets is the whole array. -/
theorem flushed_eq (c : Dev nD) (t : Fin cfg0.N) (hf : (cfg0.win 5).flush t = true) :
    (dats m 0 c).flushed 5 t = ((cfg0.win 5).blk t).view.read (Elt F) (resultBuf m c) := by
  have hN : cfg0.N = 8 := N_0
  have h7 : t.val = 7 := by have := (flush0_5 t).mp hf; have := t.isLt; omega
  obtain rfl : t = tLast := Fin.ext h7
  rw [flushed5]
  show (cfg0.win 5).cut (grid0.coords tLast) ((outsAt0 m c 7 (tLast).isLt).1) = _
  rw [out_last]
  have hz' : (fun a => win0_5.index tLast a * main_v6.ty.shape.size a) = fun _ => 0 := funext fun a => by fin_cases a <;> decide
  exact (Memref.read_access_unit_zero (Elt F) main_v6 hz' (fun a => by rw [congrFun hz' a]; simp) (resultBuf m c)).symm

/-- So the result array ends holding the result: the last point's block covers it. -/
theorem final (c : Dev nD) : (dats m 0 c).arrAt 5 cfg0.N = resultBuf m c :=
  (dats m 0 c).arrAt_eq_of_cover 5 (resultBuf m c) (flushed_eq m c) fun i =>
    ⟨tLast, (flush0_5 tLast).mpr rfl, by
      show i ∈ ((View.whole main_v6).slice (win0_5.rect tLast)).set
      rw [View.set_slice_whole, Rect.mem_set_unit]
      intro a
      have h0 : (i 0 : Nat) < 512 := (i 0).isLt
      have h1 : (i 1 : Nat) < 10 := (i 1).isLt
      match a with
      | ⟨0, _⟩ =>
        show win0_5.index tLast 0 * win0_5.size 0 ≤ (i 0 : Nat) ∧ (i 0 : Nat) < win0_5.index tLast 0 * win0_5.size 0 + win0_5.xsize (grid0.coords tLast) 0
        rw [show win0_5.index tLast 0 * win0_5.size 0 = 0 from by decide +kernel, show win0_5.xsize (grid0.coords tLast) 0 = 512 from by decide +kernel]; omega
      | ⟨1, _⟩ =>
        show win0_5.index tLast 1 * win0_5.size 1 ≤ (i 1 : Nat) ∧ (i 1 : Nat) < win0_5.index tLast 1 * win0_5.size 1 + win0_5.xsize (grid0.coords tLast) 1
        rw [show win0_5.index tLast 1 * win0_5.size 1 = 0 from by decide +kernel, show win0_5.xsize (grid0.coords tLast) 1 = 10 from by decide +kernel]; omega⟩

/-- The kernel's run, read: the result array at the result, the six arguments unchanged. -/
theorem run : θ_run defs (onTc (τ := τ) (main (F := F))) ⟨m, fun _ => 0, ρ⟩ fun r => ∀ c : Dev nD,
      r.2.mem ((c : Thread nD τ).loc main_v6) = resultBuf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (run_blocks m ρ)

end AnyValues

section Reals

variable (m : (ℓ : Loc nD τ sig) → Buf (Elt Ideal) ℓ)

/-- Point n's product as a function of every natural n: zero past the grid, where it is never used. -/
def addend (c : Dev nD) (n : ℕ) : S512x10.Idx → EReal :=
  if h : n < cfg0.N then prodAt (F := Ideal) m c ⟨n, h⟩ else fun _ => 0

theorem addend_of_lt (c : Dev nD) (n : ℕ) (h : n < cfg0.N) : addend m c n = prodAt (F := Ideal) m c ⟨n, h⟩ := by
  unfold addend; rw [dif_pos h]

/-- The block the first point resets the scratch to is zero. -/
theorem zero_blk (i : S512x10.Idx) : (k0_pay1 (F := Ideal) : S512x10.Idx → EReal) i = 0 := by
  unfold k0_pay1
  rw [shapeCast_self]
  exact Ideal.ofBits_zero_f32

/-- The running sum after point n is the sum of the products of points 0 … n. -/
theorem acc_after (c : Dev nD) (n : ℕ) (hn : n < cfg0.N) (i : S512x10.Idx) :
    ((outsAt0 (F := Ideal) m c n hn).2 : S512x10.Idx → EReal) i = ∑ s ∈ Finset.range (n + 1), addend m c s i := by
  have hN : cfg0.N = 8 := N_0
  rw [soutsAt0_0_sweep m c n hn]
  have key := Pipeline.accAt_add_apply (N := cfg0.N) (ι := S512x10.Idx) (β := EReal)
    (fun n h => scAt0_0 m c n h (VS0_0.read (Elt Ideal) VS0_0.junk)) (scAt0_0 m c) (fun _ => 0) (addend m c) 0 7
    (fun h i => by
      show scAt0_0 m c 0 h (VS0_0.read (Elt Ideal) VS0_0.junk) i = 0 + addend m c 0 i
      rw [first_eq m c 0 h rfl, addend_of_lt m c 0 h]
      show (k0_pay1 (F := Ideal) : S512x10.Idx → EReal) i + _ = _
      rw [zero_blk])
    (fun n h acc i hpos hle => by
      rw [step_eq m c n h (by omega), addend_of_lt m c n h]
      rfl)
    n (by omega) (by omega) i
  rw [key, zero_add]
  exact Finset.sum_congr rfl fun s _ => by rw [Nat.zero_add]

/-- Entry (p, q) of the result: the eight products' entries summed, plus the bias row's entry q. -/
theorem result_apply (c : Dev nD) (p : Fin 512) (q : Fin 10) :
    (result (F := Ideal) m c : S512x10.Idx → EReal) (ix2 p q)
      = (∑ s ∈ Finset.range 8, addend m c s (ix2 p q)) + (b2b (F := Ideal) m c tLast : S1x10.Idx → EReal) (ix2 (0 : Fin 1) q) := by
  unfold result
  show ((outsAt0 (F := Ideal) m c 7 (tLast).isLt).2 : S512x10.Idx → EReal) (ix2 p q)
    + broadcastTo S512x10 (b2b (F := Ideal) m c tLast) broadcasts_S1x10_S512x10 (ix2 p q) = _
  rw [acc_after m c 7 (tLast).isLt (ix2 p q), broadcastTo_1b_ab_apply]

end Reals

end Cert.KernelIdeal.Fold

end
-- ==== Proof.KernelHost.lean ====
/-
  What the kernel's region finds in its operands' arrays. Before the region @main gathers the sampled columns of W1,
  the sampled entries of b1 (then laid out as one row) and the sampled columns of W2 (then transposed), and lays b2
  out as one row; the gathers are jnp.take as in the reference: a negative id wrapped by the table's length, an id
  outside the table replaced by NaN.
-/
import proofs.«129695_j51470888075432_1_alg».proof.Proof.Gen.KernelIdeal.Frame
import Idealize.ShloMosaic.Lib.StableHlo.Run

noncomputable section

namespace Cert.KernelIdeal.Entry

open Cert.KernelIdeal Cert.KernelIdeal.Gen Idealize.ShloMosaic Idealize.ShloMosaic.TcCoe Idealize.SL.Sem
open Idealize.ShloMosaic.StableHlo

variable {F : FTy → Type} [FloatOps F]

/-- The sampled ids, a negative one wrapped by the table's length, as a column of start indices. -/
def wrapIds (ids : IVec S8192 32) : IVec S8192x1 32 :=
  broadcastInDim S8192x1 ![0] bcast_S8192_S8192x1_0
    (select (cmpi .slt ids (broadcastInDim S8192 ![] bcast_S_S8192 (constantI S_ 32 0#32)))
      (addi ids (broadcastInDim S8192 ![] bcast_S_S8192 (constantI S_ 32 262144#32))) ids)

/-- Which wrapped ids lie in the table: 0 ≤ id ≤ 262143. -/
def inTable (ix : IVec S8192x1 32) : IVec S8192 1 :=
  Host.reduce IntOp.andi
    (andi (cmpi .sge ix (broadcastInDim S8192x1 ![] bcast_S_S8192x1 (constantI S_ 32 0#32)))
      (cmpi .sle ix (broadcastInDim S8192x1 ![0, 1] bcast_S1x1_S8192x1_0_1
        (broadcastInDim S1x1 ![1] bcast_S1_S1x1_1 (constantI S1 32 262143#32)))))
    (constantI S_ 1 1#1) reducesTo_S8192x1_S8192_d1 h_S_

/-- The columns of W1 at the sampled ids (NaN columns for ids out of the table). -/
def colsW1 (W : FVec F S784x262144 .f32) (ids : IVec S8192 32) : FVec F S784x8192 .f32 :=
  select (broadcastInDim S784x8192 ![1] bcast_S8192_S784x8192_1 (inTable (wrapIds ids)))
    (Host.gather gather_S784x262144_S8192x1_S784x8192_0_1_n_n_1_1_7841 W (wrapIds ids))
    (broadcastInDim S784x8192 ![] bcast_S_S784x8192 (constant (F := F) S_ .f32 0x7FC00000#32))

/-- The entries of b1 at the sampled ids. -/
def entriesB1 (b : FVec F S262144 .f32) (ids : IVec S8192 32) : FVec F S8192 .f32 :=
  select (inTable (wrapIds ids))
    (Host.gather gather_S262144_S8192x1_S8192_n_0_n_n_0_1_1 b (wrapIds ids))
    (broadcastInDim S8192 ![] bcast_S_S8192 (constant (F := F) S_ .f32 0x7FC00000#32))

/-- The columns of W2 at the sampled ids. -/
def colsW2 (W : FVec F S10x262144 .f32) (ids : IVec S8192 32) : FVec F S10x8192 .f32 :=
  select (broadcastInDim S10x8192 ![1] bcast_S8192_S10x8192_1 (inTable (wrapIds ids)))
    (Host.gather gather_S10x262144_S8192x1_S10x8192_0_1_n_n_1_1_101 W (wrapIds ids))
    (broadcastInDim S10x8192 ![] bcast_S_S10x8192 (constant (F := F) S_ .f32 0x7FC00000#32))

variable (m : (ℓ : Loc nD τ sig) → Buf (Elt F) ℓ)

set_option maxRecDepth 16384 in
set_option maxHeartbeats 4000000 in
/-- Window 1's array: the gathered columns of W1. -/
theorem w1s_eq (c : Dev nD) :
    (V m c main_v0 : FVec F S784x8192 .f32)
      = colsW1 (m ((c : Thread nD τ).loc main_arg2)) (m ((c : Thread nD τ).loc main_arg1)) := by
  dsimp only [V]
  simp only [hostOps0, hostOps0_1, hostOps0_2, hostOps0_3, hostOps0_4, List.flatten_cons, List.flatten_nil, List.append_nil,
    List.cons_append, List.nil_append]
  after_results_simp
  rfl

set_option maxRecDepth 16384 in
set_option maxHeartbeats 4000000 in
/-- Window 2's array: the gathered entries of b1 as one row. -/
theorem b1row_eq (c : Dev nD) :
    (V m c main_v2 : FVec F S1x8192 .f32)
      = shapeCast S1x8192 (entriesB1 (m ((c : Thread nD τ).loc main_arg3)) (m ((c : Thread nD τ).loc main_arg1))) shapeCasts_S8192_S1x8192 := by
  dsimp only [V]
  simp only [hostOps0, hostOps0_1, hostOps0_2, hostOps0_3, hostOps0_4, List.flatten_cons, List.flatten_nil, List.append_nil,
    List.cons_append, List.nil_append]
  after_results_simp
  rfl

set_option maxRecDepth 16384 in
set_option maxHeartbeats 4000000 in
/-- Window 3's array: the gathered columns of W2, transposed. -/
theorem w2t_eq (c : Dev nD) :
    (V m c main_v4 : FVec F S8192x10 .f32)
      = transpose S8192x10 [1, 0] (colsW2 (m ((c : Thread nD τ).loc main_arg4)) (m ((c : Thread nD τ).loc main_arg1))) transposes_S10x8192_S8192x10_1_0 := by
  dsimp only [V]
  simp only [hostOps0, hostOps0_1, hostOps0_2, hostOps0_3, hostOps0_4, List.flatten_cons, List.flatten_nil, List.append_nil,
    List.cons_append, List.nil_append]
  after_results_simp
  rfl

set_option maxRecDepth 16384 in
set_option maxHeartbeats 4000000 in
/-- Window 4's array: b2 as one row. -/
theorem b2row_eq (c : Dev nD) :
    (V m c main_v5 : FVec F S1x10 .f32) = shapeCast S1x10 (m ((c : Thread nD τ).loc main_arg5)) shapeCasts_S10_S1x10 := by
  dsimp only [V]
  simp only [hostOps0, hostOps0_1, hostOps0_2, hostOps0_3, hostOps0_4, List.flatten_cons, List.flatten_nil, List.append_nil,
    List.cons_append, List.nil_append]
  after_results_simp
  rfl

end Cert.KernelIdeal.Entry

end
-- ==== Proof.Net.lean ====
/-
  The function both programs compute, entry by entry, on the extended reals. With X the 512 × 784 inputs, W the
  784 × 8192 gathered hidden weights, b the 8192 gathered hidden biases, U the 10 × 8192 gathered output weights and
  b2 the 10 output biases,
      hid[p, s] = max(Σ_d X[p, d]·W[d, s] + b[s], 0),      out[p, q] = Σₛ hid[p, s]·U[q, s] + b2[q].
  Sums are finite sums in the commutative monoid of the extended reals, so no finiteness of the entries is needed to
  regroup them.
-/
import Idealize.ShloMosaic.Lib.ValueIdx
import Idealize.ShloMosaic.PureOps.Ideal

noncomputable section

namespace Cert.Net

open Idealize.ShloMosaic Idealize.ShloMosaic.ValueIdx

/-- Hidden unit s of sample p. -/
def hid (X : (⟨2, ![512, 784]⟩ : Shape).Idx → EReal) (W : (⟨2, ![784, 8192]⟩ : Shape).Idx → EReal)
    (b : (⟨1, ![8192]⟩ : Shape).Idx → EReal) (p : Fin 512) (s : Fin 8192) : EReal :=
  max (∑ d : Fin 784, X (ix2 p d) * W (ix2 d s) + b (ix1 s)) 0

/-- One sampled unit's contribution to output q of sample p, as a function of every natural s (zero past the 8192
    units, where it is never used): the form in which a sum over the units is cut into tiles. -/
def term (X : (⟨2, ![512, 784]⟩ : Shape).Idx → EReal) (W : (⟨2, ![784, 8192]⟩ : Shape).Idx → EReal)
    (b : (⟨1, ![8192]⟩ : Shape).Idx → EReal) (U : (⟨2, ![10, 8192]⟩ : Shape).Idx → EReal) (p : Fin 512) (q : Fin 10) (s : ℕ) : EReal :=
  if h : s < 8192 then hid X W b p ⟨s, h⟩ * U (ix2 q ⟨s, h⟩) else 0

/-- The network's output. -/
def out (X : (⟨2, ![512, 784]⟩ : Shape).Idx → EReal) (W : (⟨2, ![784, 8192]⟩ : Shape).Idx → EReal)
    (b : (⟨1, ![8192]⟩ : Shape).Idx → EReal) (U : (⟨2, ![10, 8192]⟩ : Shape).Idx → EReal)
    (b2 : (⟨1, ![10]⟩ : Shape).Idx → EReal) : (⟨2, ![512, 10]⟩ : Shape).Idx → EReal :=
  fun i => (∑ s : Fin 8192, term X W b U (i 0) (i 1) s.val) + b2 (ix1 (i 1))

theorem term_of_lt (X : (⟨2, ![512, 784]⟩ : Shape).Idx → EReal) (W : (⟨2, ![784, 8192]⟩ : Shape).Idx → EReal)
    (b : (⟨1, ![8192]⟩ : Shape).Idx → EReal) (U : (⟨2, ![10, 8192]⟩ : Shape).Idx → EReal) (p : Fin 512) (q : Fin 10)
    (s : ℕ) (h : s < 8192) : term X W b U p q s = hid X W b p ⟨s, h⟩ * U (ix2 q ⟨s, h⟩) := by
  unfold term; rw [dif_pos h]

end Cert.Net

end
-- ==== Proof.Sums.lean ====
/-
  Sums cut into consecutive tiles. A sum over the first T·n naturals is the sum, over the T tiles, of each tile's n
  terms; over an additive commutative monoid, so it holds on the extended reals with no finiteness assumption.
-/
import Mathlib.Algebra.BigOperators.Fin
import Mathlib.Algebra.BigOperators.Intervals

namespace Cert.Tiles

open Finset

/-- The first T·n terms, tile by tile: tile t holds the terms n·t, …, n·t + n − 1. -/
theorem sum_range_tiles {M : Type*} [AddCommMonoid M] (n : ℕ) (f : ℕ → M) :
    ∀ T : ℕ, ∑ s ∈ range (T * n), f s = ∑ t ∈ range T, ∑ j ∈ range n, f (n * t + j)
  | 0 => by simp
  | T + 1 => by
    rw [Nat.succ_mul, sum_range_add, sum_range_tiles n f T, sum_range_succ, Nat.mul_comm n T]

/-- The same with the terms indexed by bounded naturals on both sides. -/
theorem sum_fin_tiles {M : Type*} [AddCommMonoid M] (T n N : ℕ) (hN : T * n = N) (f : ℕ → M) :
    ∑ s : Fin N, f s.val = ∑ t ∈ range T, ∑ j : Fin n, f (n * t + j.val) := by
  subst hN
  rw [Fin.sum_univ_eq_sum_range f (T * n), sum_range_tiles n f T]
  exact sum_congr rfl fun t _ => (Fin.sum_univ_eq_sum_range (fun j => f (n * t + j)) n).symm

end Cert.Tiles
-- ==== Proof.LibDotSum.lean ====
/-
  A matrix product read at an entry.

  A rank-2 contraction of an M×K operand with a K×N operand over the one shared axis, read at output entry (p, q), is
  the sum over the K positions k of l[p, k]·r[k, q]. The dimension record's own operand indices are compared with the
  plain pairs coordinate by coordinate, and the contraction index, a one-axis multi-index, is traded for its one
  coordinate. Stated for any dimension record whose four coordinate facts hold; a literal record proves them by
  computation.
-/
import Idealize.ShloMosaic.Lib.ValueIdx
import Idealize.ShloMosaic.PureOps.Ideal.Laws

noncomputable section

namespace Cert.LibDotSum

open Idealize.ShloMosaic Idealize.ShloMosaic.ValueIdx

/-- The contraction sum of a rank-2 dot over one axis of extent K, re-indexed by that axis's coordinate. -/
theorem sum_contr {R : Type*} [AddCommMonoid R] [Mul R] {M K N : Nat}
    (d : DotDims ⟨2, ![M, K]⟩ ⟨2, ![K, N]⟩ ⟨2, ![M, N]⟩) (hr : d.contr.rank = 1) (hs : d.contr.size ⟨0, by omega⟩ = K)
    (hl0 : ∀ (j : (⟨2, ![M, N]⟩ : Shape).Idx) (k : d.contr.Idx), (d.lhsIdx j k 0).val = (j 0).val)
    (hl1 : ∀ (j : (⟨2, ![M, N]⟩ : Shape).Idx) (k : d.contr.Idx), (d.lhsIdx j k 1).val = (k ⟨0, by omega⟩).val)
    (hr0 : ∀ (j : (⟨2, ![M, N]⟩ : Shape).Idx) (k : d.contr.Idx), (d.rhsIdx j k 0).val = (k ⟨0, by omega⟩).val)
    (hr1 : ∀ (j : (⟨2, ![M, N]⟩ : Shape).Idx) (k : d.contr.Idx), (d.rhsIdx j k 1).val = (j 1).val)
    (l : (⟨2, ![M, K]⟩ : Shape).Idx → R) (r : (⟨2, ![K, N]⟩ : Shape).Idx → R) (j : (⟨2, ![M, N]⟩ : Shape).Idx) :
    ∑ k : d.contr.Idx, l (d.lhsIdx j k) * r (d.rhsIdx j k) = ∑ k : Fin K, l (ix2 (j 0) k) * r (ix2 k (j 1)) := by
  rw [← Equiv.sum_comp (contrEquiv1 d K hr hs).symm]
  refine Finset.sum_congr rfl fun k _ => ?_
  have hk := contrEquiv1_symm_val d K hr hs k
  have el : d.lhsIdx j ((contrEquiv1 d K hr hs).symm k) = ix2 (j 0) k := by
    funext a; apply Fin.ext
    match a with
    | ⟨0, _⟩ => exact hl0 _ _
    | ⟨1, _⟩ => exact (hl1 _ _).trans hk
  have er : d.rhsIdx j ((contrEquiv1 d K hr hs).symm k) = ix2 k (j 1) := by
    funext a; apply Fin.ext
    match a with
    | ⟨0, _⟩ => exact (hr0 _ _).trans hk
    | ⟨1, _⟩ => exact hr1 _ _
  exact congrArg₂ (fun a b => l a * r b) el er

end Cert.LibDotSum

end
-- ==== Proof.KernelEntries.lean ====
/-
  The kernel's result is the network function of the gathered arrays. Point t's blocks are rows (or columns)
  1024·t … 1024·t + 1023 of the arrays the region finds: the gathered hidden weights, the gathered hidden biases as a
  row, the gathered output weights transposed; the inputs and the output bias row are staged whole. Entry (p, q) of
  point t's product is the sum over its 1024 units j of the clamped hidden value times the output weight, which is the
  network's term of unit 1024·t + j; the eight points' sums are the tiles of the sum over all 8192 units.
-/
import proofs.«129695_j51470888075432_1_alg».proof.Proof.KernelValue
import proofs.«129695_j51470888075432_1_alg».proof.Proof.KernelHost
import proofs.«129695_j51470888075432_1_alg».proof.Proof.Net
import proofs.«129695_j51470888075432_1_alg».proof.Proof.Sums
import proofs.«129695_j51470888075432_1_alg».proof.Proof.LibDotSum
import Idealize.ShloMosaic.Lib.ValueLayout
import Idealize.ShloMosaic.PureOps.Ideal.Laws

set_option maxRecDepth 16384

noncomputable section

namespace Cert.KernelIdeal.Fold

open Cert.KernelIdeal Cert.KernelIdeal.Gen Cert.KernelIdeal.Value Idealize.ShloMosaic Idealize.ShloMosaic.TcCoe Idealize.SL.Sem
open Idealize.ShloMosaic.ValueIdx
open Cert.KernelIdeal.Entry (colsW1 entriesB1 colsW2 w1s_eq b1row_eq w2t_eq b2row_eq)

/-! ## Where each window's block sits -/

theorem idx_x : ∀ t : Fin cfg0.N, win0_0.index t 0 = 0 ∧ win0_0.index t 1 = 0 :=
  (by decide +kernel : ∀ t : Fin grid0.N, win0_0.index t 0 = 0 ∧ win0_0.index t 1 = 0)
theorem idx_w1 : ∀ t : Fin cfg0.N, win0_1.index t 0 = 0 ∧ win0_1.index t 1 = t.val :=
  (by decide +kernel : ∀ t : Fin grid0.N, win0_1.index t 0 = 0 ∧ win0_1.index t 1 = t.val)
theorem idx_b1 : ∀ t : Fin cfg0.N, win0_2.index t 0 = 0 ∧ win0_2.index t 1 = t.val :=
  (by decide +kernel : ∀ t : Fin grid0.N, win0_2.index t 0 = 0 ∧ win0_2.index t 1 = t.val)
theorem idx_w2 : ∀ t : Fin cfg0.N, win0_3.index t 0 = t.val ∧ win0_3.index t 1 = 0 :=
  (by decide +kernel : ∀ t : Fin grid0.N, win0_3.index t 0 = t.val ∧ win0_3.index t 1 = 0)
theorem idx_b2 : ∀ t : Fin cfg0.N, win0_4.index t 0 = 0 ∧ win0_4.index t 1 = 0 :=
  (by decide +kernel : ∀ t : Fin grid0.N, win0_4.index t 0 = 0 ∧ win0_4.index t 1 = 0)

/-- Unit j of point t among the 8192 sampled units. -/
abbrev unitOf (t : Fin cfg0.N) (j : Fin 1024) : Fin 8192 :=
  ⟨1024 * t.val + j.val, by have h1 := t.isLt; have h2 : cfg0.N = 8 := N_0; have h3 := j.isLt; omega⟩

section AnyValues

variable {F : FTy → Type} [FloatOps F]
variable (m : (ℓ : Loc nD τ sig) → Buf (Elt F) ℓ)

/-- The inputs' block is the whole array. -/
theorem xb_apply (c : Dev nD) (t : Fin cfg0.N) (p : Fin 512) (d : Fin 784) :
    xb m c t (ix2 p d) = (m ((c : Thread nD τ).loc main_arg0) : FVec F S512x784 .f32) (ix2 p d) := by
  have hi := idx_x t
  show iblk m c 0 t _ = _
  unfold iblk
  rw [View.read_apply]
  show V m c main_arg0 _ = _
  rw [V_main_arg0]
  congr 1
  funext a; apply Fin.ext
  match a with
  | ⟨0, _⟩ => show win0_0.index t 0 * 512 + 1 * p.val = p.val; rw [hi.1]; omega
  | ⟨1, _⟩ => show win0_0.index t 1 * 784 + 1 * d.val = d.val; rw [hi.2]; omega

/-- Point t's hidden-weight block: columns 1024·t … of the gathered W1. -/
theorem w1b_apply (c : Dev nD) (t : Fin cfg0.N) (d : Fin 784) (j : Fin 1024) :
    w1b m c t (ix2 d j)
      = colsW1 (m ((c : Thread nD τ).loc main_arg2)) (m ((c : Thread nD τ).loc main_arg1)) (ix2 d (unitOf t j)) := by
  have hi := idx_w1 t
  show iblk m c 1 t _ = _
  unfold iblk
  rw [View.read_apply]
  show V m c main_v0 _ = _
  rw [w1s_eq]
  congr 1
  funext a; apply Fin.ext
  match a with
  | ⟨0, _⟩ => show win0_1.index t 0 * 784 + 1 * d.val = d.val; rw [hi.1]; omega
  | ⟨1, _⟩ => show win0_1.index t 1 * 1024 + 1 * j.val = 1024 * t.val + j.val; rw [hi.2]; omega

/-- Point t's hidden-bias block: entries 1024·t … of the gathered b1. -/
theorem b1b_apply (c : Dev nD) (t : Fin cfg0.N) (j : Fin 1024) :
    b1b m c t (ix2 (0 : Fin 1) j)
      = entriesB1 (m ((c : Thread nD τ).loc main_arg3)) (m ((c : Thread nD τ).loc main_arg1)) (ix1 (unitOf t j)) := by
  have hi := idx_b1 t
  show iblk m c 2 t _ = _
  unfold iblk
  rw [View.read_apply]
  show V m c main_v2 _ = _
  rw [b1row_eq]
  refine Eq.trans ?_ (shapeCast_a_1a_apply (entriesB1 (m ((c : Thread nD τ).loc main_arg3)) (m ((c : Thread nD τ).loc main_arg1)))
    shapeCasts_S8192_S1x8192 (0 : Fin 1) (unitOf t j))
  congr 1
  funext a; apply Fin.ext
  match a with
  | ⟨0, _⟩ => show win0_2.index t 0 * 1 + 1 * 0 = 0; rw [hi.1]
  | ⟨1, _⟩ => show win0_2.index t 1 * 1024 + 1 * j.val = 1024 * t.val + j.val; rw [hi.2]; omega

/-- Point t's output-weight block: rows 1024·t … of the transposed gathered W2. -/
theorem w2b_apply (c : Dev nD) (t : Fin cfg0.N) (j : Fin 1024) (q : Fin 10) :
    w2b m c t (ix2 j q)
      = colsW2 (m ((c : Thread nD τ).loc main_arg4)) (m ((c : Thread nD τ).loc main_arg1)) (ix2 q (unitOf t j)) := by
  have hi := idx_w2 t
  show iblk m c 3 t _ = _
  unfold iblk
  rw [View.read_apply]
  show V m c main_v4 _ = _
  rw [w2t_eq]
  refine Eq.trans ?_ (transpose_ix2_apply (colsW2 (m ((c : Thread nD τ).loc main_arg4)) (m ((c : Thread nD τ).loc main_arg1)))
    transposes_S10x8192_S8192x10_1_0 (unitOf t j) q)
  congr 1
  funext a; apply Fin.ext
  match a with
  | ⟨0, _⟩ => show win0_3.index t 0 * 1024 + 1 * j.val = 1024 * t.val + j.val; rw [hi.1]; omega
  | ⟨1, _⟩ => show win0_3.index t 1 * 10 + 1 * q.val = q.val; rw [hi.2]; omega

/-- The output-bias row block is b2 as a row. -/
theorem b2b_apply (c : Dev nD) (t : Fin cfg0.N) (q : Fin 10) :
    b2b m c t (ix2 (0 : Fin 1) q) = (m ((c : Thread nD τ).loc main_arg5) : FVec F S10 .f32) (ix1 q) := by
  have hi := idx_b2 t
  show iblk m c 4 t _ = _
  unfold iblk
  rw [View.read_apply]
  show V m c main_v5 _ = _
  rw [b2row_eq]
  refine Eq.trans ?_ (shapeCast_a_1a_apply (m ((c : Thread nD τ).loc main_arg5) : FVec F S10 .f32) shapeCasts_S10_S1x10 (0 : Fin 1) q)
  congr 1
  funext a; apply Fin.ext
  match a with
  | ⟨0, _⟩ => show win0_4.index t 0 * 1 + 1 * 0 = 0; rw [hi.1]
  | ⟨1, _⟩ => show win0_4.index t 1 * 10 + 1 * q.val = q.val; rw [hi.2]; omega

end AnyValues

section Reals

/-- One point's product at (p, q): over its 1024 units, the clamped hidden value times the output weight. -/
theorem prod_apply (x0 : Vec Ideal S512x784 .f32) (x1 : Vec Ideal S784x1024 .f32) (x2 : Vec Ideal S1x1024 .f32)
    (x3 : Vec Ideal S1024x10 .f32) (p : Fin 512) (q : Fin 10) :
    (prod (F := Ideal) x0 x1 x2 x3 : S512x10.Idx → EReal) (ix2 p q)
      = ∑ j : Fin 1024, max (∑ d : Fin 784, x0 (ix2 p d) * x1 (ix2 d j) + x2 (ix2 (0 : Fin 1) j)) 0 * x3 (ix2 j q) := by
  unfold prod
  show FloatOps.matmul _ _ _ _ (constant S512x10 .f32 0x00000000#32) (ix2 p q) = _
  rw [Ideal.matmul_constant_zero_apply,
    Cert.LibDotSum.sum_contr dot_S512x1024_S1024x10_S512x10_1_0_0_1_n_n rfl rfl (fun _ _ => rfl) (fun _ _ => rfl)
      (fun _ _ => rfl) (fun _ _ => rfl)]
  refine Finset.sum_congr rfl fun j _ => ?_
  rw [truncf_apply, truncf_apply, maximumf_apply, addf_apply, broadcastTo_1b_ab_apply, broadcast_apply]
  show max (FloatOps.matmul _ _ _ _ (constant S512x1024 .f32 0x00000000#32) (ix2 p j) + _) _ * _ = _
  rw [Ideal.matmul_constant_zero_apply,
    Cert.LibDotSum.sum_contr dot_S512x784_S784x1024_S512x1024_1_0_0_1_n_n rfl rfl (fun _ _ => rfl) (fun _ _ => rfl)
      (fun _ _ => rfl) (fun _ _ => rfl)]
  have hz : (Scalar.ofBits (F := Ideal) .f32 0x00000000#32 : EReal) = 0 := Ideal.ofBits_zero_f32
  rw [hz]
  rfl

variable (m : (ℓ : Loc nD τ sig) → Buf (Elt Ideal) ℓ)

/-- Point t's product at (p, q) is the sum of the network's terms of its 1024 units. -/
theorem addend_entry (c : Dev nD) (t : ℕ) (ht : t < 8) (p : Fin 512) (q : Fin 10) :
    addend m c t (ix2 p q)
      = ∑ j : Fin 1024, Cert.Net.term (m ((c : Thread nD τ).loc main_arg0))
          (colsW1 (F := Ideal) (m ((c : Thread nD τ).loc main_arg2)) (m ((c : Thread nD τ).loc main_arg1)))
          (entriesB1 (F := Ideal) (m ((c : Thread nD τ).loc main_arg3)) (m ((c : Thread nD τ).loc main_arg1)))
          (colsW2 (F := Ideal) (m ((c : Thread nD τ).loc main_arg4)) (m ((c : Thread nD τ).loc main_arg1))) p q (1024 * t + j.val) := by
  have hN : cfg0.N = 8 := N_0
  have h : t < cfg0.N := by omega
  rw [addend_of_lt m c t h]
  refine (prod_apply _ _ _ _ p q).trans (Finset.sum_congr rfl fun j _ => ?_)
  have hj := j.isLt
  rw [Cert.Net.term_of_lt _ _ _ _ p q (1024 * t + j.val) (by omega), w2b_apply m c ⟨t, h⟩ j q, b1b_apply m c ⟨t, h⟩ j]
  unfold Cert.Net.hid
  refine congrArg (fun z => max (z + _) 0 * _) (Finset.sum_congr rfl fun d _ => ?_)
  rw [xb_apply m c ⟨t, h⟩ p d, w1b_apply m c ⟨t, h⟩ d j]

/-- The kernel's result is the network function of the launch inputs and the three gathers. -/
theorem result_eq (c : Dev nD) :
    (result (F := Ideal) m c : S512x10.Idx → EReal)
      = Cert.Net.out (m ((c : Thread nD τ).loc main_arg0))
          (colsW1 (F := Ideal) (m ((c : Thread nD τ).loc main_arg2)) (m ((c : Thread nD τ).loc main_arg1)))
          (entriesB1 (F := Ideal) (m ((c : Thread nD τ).loc main_arg3)) (m ((c : Thread nD τ).loc main_arg1)))
          (colsW2 (F := Ideal) (m ((c : Thread nD τ).loc main_arg4)) (m ((c : Thread nD τ).loc main_arg1)))
          (m ((c : Thread nD τ).loc main_arg5)) := by
  funext i
  obtain ⟨p, q, rfl⟩ : ∃ (p : Fin 512) (q : Fin 10), i = ix2 p q := ⟨i 0, i 1, eq_ix2 i⟩
  rw [result_apply m c p q, b2b_apply m c tLast q]
  unfold Cert.Net.out
  refine congrArg (· + _) ?_
  rw [Cert.Tiles.sum_fin_tiles 8 1024 8192 rfl]
  exact Finset.sum_congr rfl fun t ht => addend_entry m c t (Finset.mem_range.mp ht) p q

end Reals

end Cert.KernelIdeal.Fold

end
-- ==== Proof.RefRun.lean ====
/-
  The reference program read as a straight line. Its @main gathers the sampled columns of the two weight
  tables and of the hidden bias through three outlined copies of jnp.take (each: wrap a negative id by the
  table's length, test the wrapped id against the table's range, gather, and put NaN where the test fails),
  multiplies, adds the bias, clamps at zero through an outlined relu, multiplies by the transposed output
  weights and adds the output bias. Inlining the four outlined functions at their call sites gives one
  list of eighty host operations; the program is the sequence of that list, so every weakly fair execution
  terminates with each buffer at the list's fold over the launch contents.
-/
import proofs.«129695_j51470888075432_1_alg».proof.Proof.Gen.ReferenceIdeal
import Idealize.ShloMosaic.Lib.StableHlo.Run

noncomputable section

namespace Cert.ReferenceIdeal.Straight

open Cert.ReferenceIdeal Cert.ReferenceIdeal.Gen Idealize.ShloMosaic Idealize.ShloMosaic.TcCoe Idealize.SL.Sem
open Idealize.ShloMosaic.StableHlo

variable {F : FTy → Type} [FloatOps F]

/-- @main's operations in program order: the columns of W1 at the sampled ids (23), the entries of b1 there (22),
    the hidden layer X·W1ₛ + b1ₛ (4), its clamp at zero (3), the columns of W2 at the sampled ids (23), and the
    output layer h·W2ₛᵀ + b2 (5). -/
abbrev ops : List (HloOp τ sig (Elt F)) :=
  [ TRef.nullary main_call0.c (constantI S_ 32 0#32),
    TRef.unary main_call0.c main_call0.v0 (broadcastInDim S8192 ![] bcast_S_S8192),
    TRef.binary (.of main_arg1 : TRef sig ⟨S8192, .i32⟩) main_call0.v0 main_call0.v1 (cmpi .slt),
    TRef.nullary main_call0.c_0 (constantI S_ 32 262144#32),
    TRef.unary main_call0.c_0 main_call0.v2 (broadcastInDim S8192 ![] bcast_S_S8192),
    TRef.binary (.of main_arg1 : TRef sig ⟨S8192, .i32⟩) main_call0.v2 main_call0.v3 addi,
    TRef.ternary main_call0.v1 main_call0.v3 (.of main_arg1 : TRef sig ⟨S8192, .i32⟩) main_call0.call0.v0 select,
    TRef.unary main_call0.call0.v0 main_call0.v5 (broadcastInDim S8192x1 ![0] bcast_S8192_S8192x1_0),
    TRef.nullary main_call0.c_1 (constantI S1 32 262143#32),
    TRef.nullary main_call0.c_2 (constantI S_ 32 0#32),
    TRef.unary main_call0.c_2 main_call0.v6 (broadcastInDim S8192x1 ![] bcast_S_S8192x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S8192x1 ![0, 1] bcast_S1x1_S8192x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S8192x1_S8192_d1 h_S_),
    TRef.binary (.of main_arg2 : TRef sig ⟨S784x262144, .f32⟩) main_call0.v5 main_call0.v13 (fun x i => Host.gather gather_S784x262144_S8192x1_S784x8192_0_1_n_n_1_1_7841 x i),
    TRef.unary main_call0.v12 main_call0.v14 (broadcastInDim S784x8192 ![1] bcast_S8192_S784x8192_1),
    TRef.nullary main_call0.cst (constant S_ .f32 0x7FC00000#32),
    TRef.unary main_call0.cst main_call0.v15 (broadcastInDim S784x8192 ![] bcast_S_S784x8192),
    TRef.ternary main_call0.v14 main_call0.v13 main_call0.v15 main_call0.v16 select,
    TRef.nullary main_call1.c (constantI S_ 32 0#32),
    TRef.unary main_call1.c main_call1.v0 (broadcastInDim S8192 ![] bcast_S_S8192),
    TRef.binary (.of main_arg1 : TRef sig ⟨S8192, .i32⟩) main_call1.v0 main_call1.v1 (cmpi .slt),
    TRef.nullary main_call1.c_0 (constantI S_ 32 262144#32),
    TRef.unary main_call1.c_0 main_call1.v2 (broadcastInDim S8192 ![] bcast_S_S8192),
    TRef.binary (.of main_arg1 : TRef sig ⟨S8192, .i32⟩) main_call1.v2 main_call1.v3 addi,
    TRef.ternary main_call1.v1 main_call1.v3 (.of main_arg1 : TRef sig ⟨S8192, .i32⟩) main_call1.call0.v0 select,
    TRef.unary main_call1.call0.v0 main_call1.v5 (broadcastInDim S8192x1 ![0] bcast_S8192_S8192x1_0),
    TRef.nullary main_call1.c_1 (constantI S1 32 262143#32),
    TRef.nullary main_call1.c_2 (constantI S_ 32 0#32),
    TRef.unary main_call1.c_2 main_call1.v6 (broadcastInDim S8192x1 ![] bcast_S_S8192x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S8192x1 ![0, 1] bcast_S1x1_S8192x1_0_1),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S8192x1_S8192_d1 h_S_),
    TRef.binary (.of main_arg3 : TRef sig ⟨S262144, .f32⟩) main_call1.v5 main_call1.v13 (fun x i => Host.gather gather_S262144_S8192x1_S8192_n_0_n_n_0_1_1 x i),
    TRef.nullary main_call1.cst (constant S_ .f32 0x7FC00000#32),
    TRef.unary main_call1.cst main_call1.v14 (broadcastInDim S8192 ![] bcast_S_S8192),
    TRef.ternary main_call1.v12 main_call1.v13 main_call1.v14 main_call1.v15 select,
    binary main_arg0 main_v0 main_v2 ((fun l r => Host.dotGeneral dot_S512x784_S784x8192_S512x8192_1_0_0_1_n_n none l r) : (⟨S512x784, .f32⟩ : BufTy).Contents (Elt F) → (⟨S784x8192, .f32⟩ : BufTy).Contents (Elt F) → (⟨S512x8192, .f32⟩ : BufTy).Contents (Elt F)),
    unary main_v1 main_v3 (broadcastInDim S1x8192 ![1] bcast_S8192_S1x8192_1 : (⟨S8192, .f32⟩ : BufTy).Contents (Elt F) → (⟨S1x8192, .f32⟩ : BufTy).Contents (Elt F)),
    unary main_v3 main_v4 (broadcastInDim S512x8192 ![0, 1] bcast_S1x8192_S512x8192_0_1 : (⟨S1x8192, .f32⟩ : BufTy).Contents (Elt F) → (⟨S512x8192, .f32⟩ : BufTy).Contents (Elt F)),
    binary main_v2 main_v4 main_v5 (addf : (⟨S512x8192, .f32⟩ : BufTy).Contents (Elt F) → (⟨S512x8192, .f32⟩ : BufTy).Contents (Elt F) → (⟨S512x8192, .f32⟩ : BufTy).Contents (Elt F)),
    TRef.nullary main_call2.cst (constant S_ .f32 0x00000000#32),
    TRef.unary main_call2.cst main_call2.v0 (broadcastInDim S512x8192 ![] bcast_S_S512x8192),
    TRef.binary (.of main_v5 : TRef sig ⟨S512x8192, .f32⟩) main_call2.v0 main_call2.v1 maximumf,
    TRef.nullary main_call3.c (constantI S_ 32 0#32),
    TRef.unary main_call3.c main_call3.v0 (broadcastInDim S8192 ![] bcast_S_S8192),
    TRef.binary (.of main_arg1 : TRef sig ⟨S8192, .i32⟩) main_call3.v0 main_call3.v1 (cmpi .slt),
    TRef.nullary main_call3.c_0 (constantI S_ 32 262144#32),
    TRef.unary main_call3.c_0 main_call3.v2 (broadcastInDim S8192 ![] bcast_S_S8192),
    TRef.binary (.of main_arg1 : TRef sig ⟨S8192, .i32⟩) main_call3.v2 main_call3.v3 addi,
    TRef.ternary main_call3.v1 main_call3.v3 (.of main_arg1 : TRef sig ⟨S8192, .i32⟩) main_call3.call0.v0 select,
    TRef.unary main_call3.call0.v0 main_call3.v5 (broadcastInDim S8192x1 ![0] bcast_S8192_S8192x1_0),
    TRef.nullary main_call3.c_1 (constantI S1 32 262143#32),
    TRef.nullary main_call3.c_2 (constantI S_ 32 0#32),
    TRef.unary main_call3.c_2 main_call3.v6 (broadcastInDim S8192x1 ![] bcast_S_S8192x1),
    TRef.binary main_call3.v5 main_call3.v6 main_call3.v7 (cmpi .sge),
    TRef.unary main_call3.c_1 main_call3.v8 (broadcastInDim S1x1 ![1] bcast_S1_S1x1_1),
    TRef.unary main_call3.v8 main_call3.v9 (broadcastInDim S8192x1 ![0, 1] bcast_S1x1_S8192x1_0_1),
    TRef.binary main_call3.v5 main_call3.v9 main_call3.v10 (cmpi .sle),
    TRef.binary main_call3.v7 main_call3.v10 main_call3.v11 andi,
    TRef.nullary main_call3.c_3 (constantI S_ 1 1#1),
    TRef.binary main_call3.v11 main_call3.c_3 main_call3.v12 (fun x v => Host.reduce IntOp.andi x v reducesTo_S8192x1_S8192_d1 h_S_),
    TRef.binary (.of main_arg4 : TRef sig ⟨S10x262144, .f32⟩) main_call3.v5 main_call3.v13 (fun x i => Host.gather gather_S10x262144_S8192x1_S10x8192_0_1_n_n_1_1_101 x i),
    TRef.unary main_call3.v12 main_call3.v14 (broadcastInDim S10x8192 ![1] bcast_S8192_S10x8192_1),
    TRef.nullary main_call3.cst (constant S_ .f32 0x7FC00000#32),
    TRef.unary main_call3.cst main_call3.v15 (broadcastInDim S10x8192 ![] bcast_S_S10x8192),
    TRef.ternary main_call3.v14 main_call3.v13 main_call3.v15 main_call3.v16 select,
    unary main_v7 main_v8 ((transpose S8192x10 [1, 0] · transposes_S10x8192_S8192x10_1_0) : (⟨S10x8192, .f32⟩ : BufTy).Contents (Elt F) → (⟨S8192x10, .f32⟩ : BufTy).Contents (Elt F)),
    binary main_v6 main_v8 main_v9 ((fun l r => Host.dotGeneral dot_S512x8192_S8192x10_S512x10_1_0_0_1_n_n none l r) : (⟨S512x8192, .f32⟩ : BufTy).Contents (Elt F) → (⟨S8192x10, .f32⟩ : BufTy).Contents (Elt F) → (⟨S512x10, .f32⟩ : BufTy).Contents (Elt F)),
    unary main_arg5 main_v10 (broadcastInDim S1x10 ![1] bcast_S10_S1x10_1 : (⟨S10, .f32⟩ : BufTy).Contents (Elt F) → (⟨S1x10, .f32⟩ : BufTy).Contents (Elt F)),
    unary main_v10 main_v11 (broadcastInDim S512x10 ![0, 1] bcast_S1x10_S512x10_0_1 : (⟨S1x10, .f32⟩ : BufTy).Contents (Elt F) → (⟨S512x10, .f32⟩ : BufTy).Contents (Elt F)),
    binary main_v9 main_v11 main_v12 (addf : (⟨S512x10, .f32⟩ : BufTy).Contents (Elt F) → (⟨S512x10, .f32⟩ : BufTy).Contents (Elt F) → (⟨S512x10, .f32⟩ : BufTy).Contents (Elt F)) ]

set_option maxRecDepth 8192 in
set_option maxHeartbeats 4000000 in
/-- @main is that straight line: the outlined functions unfolded at their calls and the sequencing reassociated,
    both sides are one chain of the same host steps. -/
theorem main_eq (c : Dev nD) : main (F := F) c = seq ops := by
  simp only [main, fn_take.body, fn_take_0.body, fn_take_1.body, fn_relu.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..,
    nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., nullary_bufs_sub .., unary_bufs_sub .., ternary_bufs_sub ..,
    binary_bufs_sub .., unary_bufs_sub .., unary_bufs_sub .., binary_bufs_sub ..,
    nullary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..,
    unary_bufs_sub .., binary_bufs_sub .., unary_bufs_sub .., unary_bufs_sub .., binary_bufs_sub ..⟩

/-- From any memory with zero counters every weakly fair execution of @main terminates, and every TensorCore buffer
    ends at the fold of the eighty operations over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.Straight

end
-- ==== Proof.RefOut.lean ====
/-
  What the reference computes, stage by stage, as functions of its argument arrays.

  jnp.take of a table along its last axis at the sampled ids: an id below zero is wrapped by the table's length
  262144 (wrapIds); a wrapped id outside 0 … 262143 is out of the table (inTable); the gathered entry is kept
  where the id is in the table and replaced by NaN elsewhere. The three gathers (the columns of W1, the entries
  of b1, the columns of W2) share the ids. On the gathered arrays the network is
      out[n, c] = Σₛ max(Σ_d X[n, d]·W1ₛ[d, s] + b1ₛ[s], 0)·W2ₛ[c, s] + b2[c]        (layers).
  The fold of the eighty operations at the result buffer is layers of the three gathers, and at an argument's
  buffer the argument itself: no operation writes an argument.
-/
import proofs.«129695_j51470888075432_1_alg».proof.Proof.RefRun

noncomputable section

namespace Cert.ReferenceIdeal.Straight

open Cert.ReferenceIdeal Cert.ReferenceIdeal.Gen Idealize.ShloMosaic Idealize.ShloMosaic.TcCoe Idealize.SL.Sem
open Idealize.ShloMosaic.StableHlo

variable {F : FTy → Type} [FloatOps F]

/-- The sampled ids, a negative one wrapped by the table's length, as a column of start indices. -/
def wrapIds (ids : IVec S8192 32) : IVec S8192x1 32 :=
  broadcastInDim S8192x1 ![0] bcast_S8192_S8192x1_0
    (select (cmpi .slt ids (broadcastInDim S8192 ![] bcast_S_S8192 (constantI S_ 32 0#32)))
      (addi ids (broadcastInDim S8192 ![] bcast_S_S8192 (constantI S_ 32 262144#32))) ids)

/-- Which wrapped ids lie in the table: 0 ≤ id ≤ 262143. -/
def inTable (ix : IVec S8192x1 32) : IVec S8192 1 :=
  Host.reduce IntOp.andi
    (andi (cmpi .sge ix (broadcastInDim S8192x1 ![] bcast_S_S8192x1 (constantI S_ 32 0#32)))
      (cmpi .sle ix (broadcastInDim S8192x1 ![0, 1] bcast_S1x1_S8192x1_0_1
        (broadcastInDim S1x1 ![1] bcast_S1_S1x1_1 (constantI S1 32 262143#32)))))
    (constantI S_ 1 1#1) reducesTo_S8192x1_S8192_d1 h_S_

/-- The columns of W1 at the sampled ids (NaN columns for ids out of the table). -/
def colsW1 (W : FVec F S784x262144 .f32) (ids : IVec S8192 32) : FVec F S784x8192 .f32 :=
  select (broadcastInDim S784x8192 ![1] bcast_S8192_S784x8192_1 (inTable (wrapIds ids)))
    (Host.gather gather_S784x262144_S8192x1_S784x8192_0_1_n_n_1_1_7841 W (wrapIds ids))
    (broadcastInDim S784x8192 ![] bcast_S_S784x8192 (constant (F := F) S_ .f32 0x7FC00000#32))

/-- The entries of b1 at the sampled ids. -/
def entriesB1 (b : FVec F S262144 .f32) (ids : IVec S8192 32) : FVec F S8192 .f32 :=
  select (inTable (wrapIds ids))
    (Host.gather gather_S262144_S8192x1_S8192_n_0_n_n_0_1_1 b (wrapIds ids))
    (broadcastInDim S8192 ![] bcast_S_S8192 (constant (F := F) S_ .f32 0x7FC00000#32))

/-- The columns of W2 at the sampled ids. -/
def colsW2 (W : FVec F S10x262144 .f32) (ids : IVec S8192 32) : FVec F S10x8192 .f32 :=
  select (broadcastInDim S10x8192 ![1] bcast_S8192_S10x8192_1 (inTable (wrapIds ids)))
    (Host.gather gather_S10x262144_S8192x1_S10x8192_0_1_n_n_1_1_101 W (wrapIds ids))
    (broadcastInDim S10x8192 ![] bcast_S_S10x8192 (constant (F := F) S_ .f32 0x7FC00000#32))

/-- The two layers on gathered weights: max(X·W1ₛ + b1ₛ, 0)·W2ₛᵀ + b2. -/
def layers (X : FVec F S512x784 .f32) (W1s : FVec F S784x8192 .f32) (b1s : FVec F S8192 .f32)
    (W2s : FVec F S10x8192 .f32) (b2 : FVec F S10 .f32) : FVec F S512x10 .f32 :=
  addf
    (Host.dotGeneral dot_S512x8192_S8192x10_S512x10_1_0_0_1_n_n none
      (maximumf
        (addf (Host.dotGeneral dot_S512x784_S784x8192_S512x8192_1_0_0_1_n_n none X W1s)
          (broadcastInDim S512x8192 ![0, 1] bcast_S1x8192_S512x8192_0_1 (broadcastInDim S1x8192 ![1] bcast_S8192_S1x8192_1 b1s)))
        (broadcastInDim S512x8192 ![] bcast_S_S512x8192 (constant (F := F) S_ .f32 0x00000000#32)))
      (transpose S8192x10 [1, 0] W2s transposes_S10x8192_S8192x10_1_0))
    (broadcastInDim S512x10 ![0, 1] bcast_S1x10_S512x10_0_1 (broadcastInDim S1x10 ![1] bcast_S10_S1x10_1 b2))

set_option maxRecDepth 16384 in
set_option maxHeartbeats 4000000 in
/-- The fold at the result buffer: each operation's value at its own buffer, every other buffer as it was. -/
theorem out_eq (V : Valuation τ sig (Elt F)) :
    after ops V (main_v12 : DevRef τ sig)
      = layers (V (main_arg0 : DevRef τ sig)) (colsW1 (V (main_arg2 : DevRef τ sig)) (V (main_arg1 : DevRef τ sig)))
          (entriesB1 (V (main_arg3 : DevRef τ sig)) (V (main_arg1 : DevRef τ sig)))
          (colsW2 (V (main_arg4 : DevRef τ sig)) (V (main_arg1 : DevRef τ sig))) (V (main_arg5 : DevRef τ sig)) := by
  after_results_simp
  rfl

/-- No operation writes an argument's buffer. -/
theorem keeps (b : Ref sig .tc) (hb : b = main_arg0 ∨ b = main_arg1 ∨ b = main_arg2 ∨ b = main_arg3 ∨ b = main_arg4 ∨ b = main_arg5)
    (V : Valuation τ sig (Elt F)) : after ops V (b : DevRef τ sig) = V (b : DevRef τ sig) :=
  after_of_forall_not_mem (b := Proc.devRef .tc b) _ _ (List.forall_iff_forall_mem.mp (by
    simp only [ops, List.Forall, nullary_writes, unary_writes, binary_writes, ternary_writes, Finset.mem_singleton]
    rcases hb with rfl | rfl | rfl | rfl | rfl | rfl
    all_goals (repeat' apply And.intro) <;> exact devRef_ne_of_ne (by decide)))

/-- The reference's run, read: the result array at the two layers of the three gathers of the launch contents, the
    six arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v12)
        = layers (m ((c.tc : Thread nD τ).loc main_arg0))
            (colsW1 (m ((c.tc : Thread nD τ).loc main_arg2)) (m ((c.tc : Thread nD τ).loc main_arg1)))
            (entriesB1 (m ((c.tc : Thread nD τ).loc main_arg3)) (m ((c.tc : Thread nD τ).loc main_arg1)))
            (colsW2 (m ((c.tc : Thread nD τ).loc main_arg4)) (m ((c.tc : Thread nD τ).loc main_arg1)))
            (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
      ⟨(h c main_v12).trans (out_eq (launchContents m c)),
       (h c main_arg0).trans (keeps main_arg0 (.inl rfl) _),
       (h c main_arg1).trans (keeps main_arg1 (.inr (.inl rfl)) _),
       (h c main_arg2).trans (keeps main_arg2 (.inr (.inr (.inl rfl))) _),
       (h c main_arg3).trans (keeps main_arg3 (.inr (.inr (.inr (.inl rfl)))) _),
       (h c main_arg4).trans (keeps main_arg4 (.inr (.inr (.inr (.inr (.inl rfl))))) _),
       (h c main_arg5).trans (keeps main_arg5 (.inr (.inr (.inr (.inr (.inr rfl))))) _)⟩)
    (run_all m ρ)

end Cert.ReferenceIdeal.Straight

end
-- ==== Proof.LibBroadcast.lean ====
/-
  Broadcasts read at an entry: a vector laid out as one row and repeated over the rows of a matrix reads, at (p, s),
  the vector's entry s; a scalar broadcast to any shape reads the scalar.
-/
import Idealize.ShloMosaic.Lib.Pipeline.Value
import Idealize.ShloMosaic.Lib.ValueIdx

noncomputable section

namespace Cert.LibBroadcast

open Idealize.ShloMosaic Idealize.ShloMosaic.ValueIdx

/-- A length-b vector broadcast to one row (along axis 1), then to a rows: entry (p, s) is the vector's entry s. -/
theorem row_rows_apply {α : Type} {a b : ℕ} (x : (⟨1, ![b]⟩ : Shape).Idx → α)
    (h1 : (⟨1, ![b]⟩ : Shape).BroadcastsInDim ⟨2, ![1, b]⟩ ![1])
    (h2 : (⟨2, ![1, b]⟩ : Shape).BroadcastsInDim ⟨2, ![a, b]⟩ ![0, 1]) (p : Fin a) (s : Fin b) :
    broadcastInDim ⟨2, ![a, b]⟩ ![0, 1] h2 (broadcastInDim ⟨2, ![1, b]⟩ ![1] h1 x) (ix2 p s) = x (ix1 s) := by
  have hs : ∀ c : ℕ, (if b = 1 then 0 else s.val) = s.val := fun _ => by
    split
    · have := s.isLt; omega
    · rfl
  rw [broadcastInDim_apply ![0, 1] h2 _ (ix2 p s) (ix2 (0 : Fin 1) s) (fun ax => by
    match ax with
    | ⟨0, _⟩ => rfl
    | ⟨1, _⟩ => exact (hs 0).symm)]
  exact broadcastInDim_apply ![1] h1 x (ix2 (0 : Fin 1) s) (ix1 s) (fun ax => by
    match ax with
    | ⟨0, _⟩ => exact (hs 0).symm)

/-- A scalar broadcast to any shape reads the scalar. -/
theorem scalar_apply {α : Type} {t : Shape} (dims : Fin 0 → Fin t.rank) (h : (⟨0, ![]⟩ : Shape).BroadcastsInDim t dims)
    (x : (⟨0, ![]⟩ : Shape).Idx → α) (j : t.Idx) : broadcastInDim t dims h x j = x ix0 :=
  broadcastInDim_apply dims h x j ix0 (fun a => a.elim0)

end Cert.LibBroadcast

end
-- ==== Proof.RefNet.lean ====
/-
  The reference's two layers are the network function: read at entry (p, q), the second product is a sum over the 8192
  sampled units of the clamped hidden value times the transposed output weight, the hidden value a sum over the 784
  inputs plus the bias broadcast along the samples, and the output bias is broadcast the same way.
-/
import proofs.«129695_j51470888075432_1_alg».proof.Proof.RefOut
import proofs.«129695_j51470888075432_1_alg».proof.Proof.Net
import proofs.«129695_j51470888075432_1_alg».proof.Proof.LibDotSum
import proofs.«129695_j51470888075432_1_alg».proof.Proof.LibBroadcast
import Idealize.ShloMosaic.Lib.ValueLayout
import Idealize.ShloMosaic.PureOps.Ideal.Laws

set_option maxRecDepth 16384

noncomputable section

namespace Cert.ReferenceIdeal.Straight

open Cert.ReferenceIdeal Cert.ReferenceIdeal.Gen Idealize.ShloMosaic Idealize.ShloMosaic.TcCoe Idealize.ShloMosaic.ValueIdx

/-- The hidden layer's product at (p, s): the sum over the 784 inputs. -/
theorem hidden_dot (X : FVec Ideal S512x784 .f32) (W : FVec Ideal S784x8192 .f32) (p : Fin 512) (s : Fin 8192) :
    Host.dotGeneral dot_S512x784_S784x8192_S512x8192_1_0_0_1_n_n none X W (ix2 p s)
      = ∑ d : Fin 784, X (ix2 p d) * W (ix2 d s) := by
  show FloatOps.dotGeneral _ _ _ X W (ix2 p s) = _
  rw [Ideal.dotGeneral_apply]
  exact Cert.LibDotSum.sum_contr dot_S512x784_S784x8192_S512x8192_1_0_0_1_n_n rfl rfl (fun _ _ => rfl) (fun _ _ => rfl)
    (fun _ _ => rfl) (fun _ _ => rfl) X W (ix2 p s)

/-- The output layer's product at (p, q): the sum over the 8192 sampled units. -/
theorem output_dot (H : FVec Ideal S512x8192 .f32) (Ut : FVec Ideal S8192x10 .f32) (p : Fin 512) (q : Fin 10) :
    Host.dotGeneral dot_S512x8192_S8192x10_S512x10_1_0_0_1_n_n none H Ut (ix2 p q)
      = ∑ s : Fin 8192, H (ix2 p s) * Ut (ix2 s q) := by
  show FloatOps.dotGeneral _ _ _ H Ut (ix2 p q) = _
  rw [Ideal.dotGeneral_apply]
  exact Cert.LibDotSum.sum_contr dot_S512x8192_S8192x10_S512x10_1_0_0_1_n_n rfl rfl (fun _ _ => rfl) (fun _ _ => rfl)
    (fun _ _ => rfl) (fun _ _ => rfl) H Ut (ix2 p q)

/-- The two layers are the network function of the gathered arrays. -/
theorem layers_eq (X : FVec Ideal S512x784 .f32) (W1s : FVec Ideal S784x8192 .f32) (b1s : FVec Ideal S8192 .f32)
    (W2s : FVec Ideal S10x8192 .f32) (b2 : FVec Ideal S10 .f32) :
    layers (F := Ideal) X W1s b1s W2s b2 = Cert.Net.out X W1s b1s W2s b2 := by
  funext i
  obtain ⟨p, q, rfl⟩ : ∃ (p : Fin 512) (q : Fin 10), i = ix2 p q := ⟨i 0, i 1, eq_ix2 i⟩
  unfold layers Cert.Net.out
  rw [addf_apply, output_dot, Cert.LibBroadcast.row_rows_apply]
  refine congrArg (· + b2 (ix1 q)) (Finset.sum_congr rfl fun s _ => ?_)
  rw [Cert.Net.term_of_lt X W1s b1s W2s p q s.val s.isLt, transpose_ix2_apply, maximumf_apply, addf_apply, hidden_dot,
    Cert.LibBroadcast.row_rows_apply, Cert.LibBroadcast.scalar_apply]
  unfold Cert.Net.hid
  rw [constant_apply, Ideal.ofBits_zero_f32]

end Cert.ReferenceIdeal.Straight

end
-- ==== Proof.lean ====
/-
  The certificate of a two-layer network evaluated on 8192 sampled hidden units.

  Both programs gather the sampled columns of the hidden weights W1, the sampled entries of the hidden bias b1 and the
  sampled columns of the output weights W2 with jnp.take (the same operations, so the same arrays), and compute
      out[p, q] = Σₛ max(Σ_d X[p, d]·W1ₛ[d, s] + b1ₛ[s], 0)·W2ₛ[q, s] + b2[q].
  The reference forms the sum over all 8192 units in one matrix product. The kernel walks the units in eight tiles of
  1024: each grid point adds its tile's partial product to a running sum that starts from zero, and the last point adds
  the bias. At the ideal values a change of float format is the identity and both matrix products are plain finite sums,
  so the kernel's entry is the reference's sum cut into eight consecutive tiles; finite sums on the extended reals may
  be regrouped freely (addition there is commutative and associative), so the claim needs no finiteness of the inputs.
  The ideal pass rewrote nothing, so the idealized kernel is the kernel's own text. The two kernels' frames are the
  generated ones; the reference's frame is its run as a straight line of host operations with the result forgotten.
-/
import proofs.«129695_j51470888075432_1_alg».proof.Defs
import proofs.«129695_j51470888075432_1_alg».proof.Proof.Gen.Kernel
import proofs.«129695_j51470888075432_1_alg».proof.Proof.Gen.Kernel.Frame
import proofs.«129695_j51470888075432_1_alg».proof.Proof.Gen.KernelIdeal
import proofs.«129695_j51470888075432_1_alg».proof.Proof.Gen.ReferenceIdeal
import proofs.«129695_j51470888075432_1_alg».proof.Proof.Gen.Pre_finite_inputs
import proofs.«129695_j51470888075432_1_alg».proof.Proof.KernelEntries
import proofs.«129695_j51470888075432_1_alg».proof.Proof.RefNet
import Idealize.ShloMosaic.Adequacy
import Idealize.ShloMosaic.Init

noncomputable section

namespace Cert.Proof

open Idealize.ShloMosaic Idealize.SL.Sem

/-! ## The two programs gather the same arrays -/

theorem wrapIds_eq (ids : IVec Cert.KernelIdeal.S8192 32) :
    Cert.ReferenceIdeal.Straight.wrapIds ids = Cert.KernelIdeal.Entry.wrapIds ids := rfl

theorem inTable_eq (ix : IVec Cert.KernelIdeal.S8192x1 32) :
    Cert.ReferenceIdeal.Straight.inTable ix = Cert.KernelIdeal.Entry.inTable ix := rfl

theorem colsW1_eq (W : FVec Ideal Cert.KernelIdeal.S784x262144 .f32) (ids : IVec Cert.KernelIdeal.S8192 32) :
    Cert.ReferenceIdeal.Straight.colsW1 (F := Ideal) W ids = Cert.KernelIdeal.Entry.colsW1 W ids := by
  unfold Cert.ReferenceIdeal.Straight.colsW1 Cert.KernelIdeal.Entry.colsW1
  rw [wrapIds_eq, inTable_eq]
  rfl

theorem entriesB1_eq (b : FVec Ideal Cert.KernelIdeal.S262144 .f32) (ids : IVec Cert.KernelIdeal.S8192 32) :
    Cert.ReferenceIdeal.Straight.entriesB1 (F := Ideal) b ids = Cert.KernelIdeal.Entry.entriesB1 b ids := by
  unfold Cert.ReferenceIdeal.Straight.entriesB1 Cert.KernelIdeal.Entry.entriesB1
  rw [wrapIds_eq, inTable_eq]
  rfl

theorem colsW2_eq (W : FVec Ideal Cert.KernelIdeal.S10x262144 .f32) (ids : IVec Cert.KernelIdeal.S8192 32) :
    Cert.ReferenceIdeal.Straight.colsW2 (F := Ideal) W ids = Cert.KernelIdeal.Entry.colsW2 W ids := by
  unfold Cert.ReferenceIdeal.Straight.colsW2 Cert.KernelIdeal.Entry.colsW2
  rw [wrapIds_eq, inTable_eq]
  rfl

/-! ## The claims -/

theorem frame_k : Cert.frame_Kernel := fun m ρ _ => Cert.Kernel.Gen.frame m ρ

theorem frame_ki : Cert.frame_KernelIdeal := fun m ρ _ => Cert.KernelIdeal.Gen.frame m ρ

/-- The reference's frame: its run with the result forgotten. -/
theorem frame_ri : Cert.frame_ReferenceIdeal := fun m ρ _ =>
  (θ_run Cert.ReferenceIdeal.defs _ _).mono (fun _ h c => (h c).2) (Cert.ReferenceIdeal.Straight.run (F := Ideal) m ρ)

theorem preserves : Cert.preserves_Kernel_KernelIdeal := trivial

/-- At the ideal values the kernel's result array ends at the network function of the launch inputs and the three
    gathers (the sum over the units tile by tile), the reference's at the same function (the sum over the units at
    once) of inputs that agree. -/
theorem algebraic : Cert.algebraic_KernelIdeal_ReferenceIdeal := by
  intro m ρ m' ρ' _ hagree
  refine ⟨fun c => Cert.KernelIdeal.Fold.resultBuf (F := Ideal) m c, Cert.KernelIdeal.Fold.run (F := Ideal) m ρ, ?_⟩
  refine (θ_run Cert.ReferenceIdeal.defs _ _).mono (fun _ h c => ⟨(h c).1.trans ?_, (h c).2⟩)
    (Cert.ReferenceIdeal.Straight.run (F := Ideal) m' ρ')
  obtain ⟨h0, h1, h2, h3, h4, h5⟩ := hagree c
  rw [h0, h1, h2, h3, h4, h5, Cert.ReferenceIdeal.Straight.layers_eq, colsW1_eq, entriesB1_eq, colsW2_eq]
  exact (Cert.KernelIdeal.Fold.result_eq m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
